-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2x1024 : Shape := ⟨3, ![2048, 2, 1024]⟩
abbrev S1024x1024 : Shape := ⟨2, ![1024, 1024]⟩
abbrev S1024 : Shape := ⟨1, ![1024]⟩
abbrev S_ : Shape := ⟨0, ![]⟩

class Facts : Prop where
  bcast_S_S2048x2x1024 : S_.BroadcastsInDim S2048x2x1024 (![] : Fin 0 → Fin S2048x2x1024.rank)
  reducesTo_S2048x2x1024_S_d0_1_2 : S2048x2x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S1024x1024 .f32) (main_arg5 : FVec F S1024x1024 .f32) (main_arg6 : FVec F S1024x1024 .f32) (main_arg7 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_v33

def fn {F : FTy → Type} [FloatOps F] (main_arg0 : FVec F S2048x2x1024 .f32) (main_arg1 : FVec F S2048x2x1024 .f32) (main_arg2 : FVec F S2048x2x1024 .f32) (main_arg3 : FVec F S1024x1024 .f32) (main_arg4 : FVec F S1024x1024 .f32) (main_arg5 : FVec F S1024x1024 .f32) (main_arg6 : FVec F S1024x1024 .f32) (main_arg7 : FVec F S1024 .f32) : IVec S_ 1 :=
  let main_v0 : FVec F S2048x2x1024 .f32 := Host.absf main_arg0
  let main_cst : FVec F S_ .f32 := constant S_ .f32 0x7F800000#32
  let main_v1 : FVec F S2048x2x1024 .f32 := broadcastInDim S2048x2x1024 ![] bcast_S_S2048x2x1024 main_cst
  let main_v2 : IVec S2048x2x1024 1 := cmpf .olt main_v0 main_v1
  let main_c : IVec S_ 1 := constantI S_ 1 1#1
  let main_v3 : IVec S_ 1 := (fun x v => Host.reduce IntOp.andi x v reducesTo_S2048x2x1024_S_d0_1_2 h_S_) main_v2 main_c
  let main_v4 : FVec F S2048x2x1024 .f32 := Host.absf main_arg1
  let main_cst_0 : FVec F S_ .f32 := constant S_ .f32 0x7F800000#32
  let main_v5 : FVec F S2048x2x1024 .f32 := broadcastInDim S2048x2x1024 ![] bcast_S_S2048x2x1024 main_cst_0
  let main_v6 : IVec S2048x2x1024 1 := cmpf .olt main_v4 main_v5
  let main_c_1 : IVec S_ 1 := constantI S_ 1 1#1
  let main_v7 : IVec S_ 1 := (fun x v => Host.reduce IntOp.andi x v reducesTo_S2048x2x1024_S_d0_1_2 h_S_) main_v6 main_c_1
  let main_v8 : IVec S_ 1 := andi main_v3 main_v7
  let main_v9 : FVec F S2048x2x1024 .f32 := Host.absf main_arg2
  let main_cst_2 : FVec F S_ .f32 := constant S_ .f32 0x7F800000#32
  let main_v10 : FVec F S2048x2x1024 .f32 := broadcastInDim S2048x2x1024 ![] bcast_S_S2048x2x1024 main_cst_2
  let main_v11 : IVec S2048x2x1024 1 := cmpf .olt main_v9 main_v10
  let main_c_3 : IVec S_ 1 := constantI S_ 1 1#1
  let main_v12 : IVec S_ 1 := (fun x v => Host.reduce IntOp.andi x v reducesTo_S2048x2x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_v13 main_v16
-- ==== Kernel.lean ====
abbrev S2048x2x1024 : Shape := ⟨3, ![2048, 2, 1024]⟩
abbrev S1024x1024 : Shape := ⟨2, ![1024, 1024]⟩
abbrev S1024 : Shape := ⟨1, ![1024]⟩
abbrev S4096x1024 : Shape := ⟨2, ![4096, 1024]⟩
abbrev S2048x2x16x64 : Shape := ⟨4, ![2048, 2, 16, 64]⟩
abbrev S2x16x2048x64 : Shape := ⟨4, ![2, 16, 2048, 64]⟩
abbrev S32x2048x64 : Shape := ⟨3, ![32, 2048, 64]⟩
abbrev S32x2048x2048 : Shape := ⟨3, ![32, 2048, 2048]⟩
abbrev S1x512x64 : Shape := ⟨3, ![1, 512, 64]⟩
abbrev S1x2048x64 : Shape := ⟨3, ![1, 2048, 64]⟩
abbrev S1x512x2048 : Shape := ⟨3, ![1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S2x16x2048x2048 : Shape := ⟨4, ![2, 16, 2048, 2048]⟩
abbrev S1x1024 : Shape := ⟨2, ![1, 1024]⟩

abbrev nBuf : Space → Nat
  | .hbm => 36
  | .vmem => 29
  | .smem => 0
  | _ => 0

abbrev bufTy : (tb : Table) → Fin (tcTables nBuf tb) → BufTy
  | .hbm, ⟨0, _⟩ => ⟨S2048x2x1024, .f32⟩
  | .hbm, ⟨1, _⟩ => ⟨S2048x2x1024, .f32⟩
  | .hbm, ⟨2, _⟩ => ⟨S2048x2x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S4096x1024, .f32⟩
  | .hbm, ⟨9, _⟩ => ⟨S4096x1024, .bf16⟩
  | .hbm, ⟨10, _⟩ => ⟨S2048x2x1024, .bf16⟩
  | .hbm, ⟨11, _⟩ => ⟨S4096x1024, .f32⟩
  | .hbm, ⟨12, _⟩ => ⟨S4096x1024, .bf16⟩
  | .hbm, ⟨13, _⟩ => ⟨S2048x2x1024, .bf16⟩
  | .hbm, ⟨14, _⟩ => ⟨S4096x1024, .f32⟩
  | .hbm, ⟨15, _⟩ => ⟨S4096x1024, .bf16⟩
  | .hbm, ⟨16, _⟩ => ⟨S2048x2x1024, .bf16⟩
  | .hbm, ⟨17, _⟩ => ⟨S2048x2x16x64, .bf16⟩
  | .hbm, ⟨18, _⟩ => ⟨S2x16x2048x64, .bf16⟩
  | .hbm, ⟨19, _⟩ => ⟨S32x2048x64, .bf16⟩
  | .hbm, ⟨20, _⟩ => ⟨S2048x2x16x64, .bf16⟩
  | .hbm, ⟨21, _⟩ => ⟨S2x16x2048x64, .bf16⟩
  | .hbm, ⟨22, _⟩ => ⟨S32x2048x64, .bf16⟩
  | .hbm, ⟨23, _⟩ => ⟨S2048x2x16x64, .bf16⟩
  | .hbm, ⟨24, _⟩ => ⟨S2x16x2048x64, .bf16⟩
  | .hbm, ⟨25, _⟩ => ⟨S32x2048x64, .bf16⟩
  | .hbm, ⟨26, _⟩ => ⟨S32x2048x64, .bf16⟩
  | .hbm, ⟨27, _⟩ => ⟨S32x2048x2048, .f32⟩
  | .hbm, ⟨28, _⟩ => ⟨S2x16x2048x2048, .f32⟩
  | .hbm, ⟨29, _⟩ => ⟨S2x16x2048x64, .bf16⟩
  | .hbm, ⟨30, _⟩ => ⟨S2048x2x16x64, .bf16⟩
  | .hbm, ⟨31, _⟩ => ⟨S2048x2x1024, .bf16⟩
  | .hbm, ⟨32, _⟩ => ⟨S4096x1024, .bf16⟩
  | .hbm, ⟨33, _⟩ => ⟨S1024x1024, .bf16⟩
  | .hbm, ⟨34, _⟩ => ⟨S4096x1024, .f32⟩
  | .hbm, ⟨35, _⟩ => ⟨S2048x2x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .bf16⟩
  | .local _ .vmem, ⟨14, _⟩ => ⟨S1024x1024, .bf16⟩
  | .local _ .vmem, ⟨15, _⟩ => ⟨S1x512x64, .bf16⟩
  | .local _ .vmem, ⟨16, _⟩ => ⟨S1x512x64, .bf16⟩
  | .local _ .vmem, ⟨17, _⟩ => ⟨S1x2048x64, .bf16⟩
  | .local _ .vmem, ⟨18, _⟩ => ⟨S1x2048x64, .bf16⟩
  | .local _ .vmem, ⟨19, _⟩ => ⟨S1x512x64, .bf16⟩
  | .local _ .vmem, ⟨20, _⟩ => ⟨S1x512x64, .bf16⟩
  | .local _ .vmem, ⟨21, _⟩ => ⟨S1x512x2048, .f32⟩
  | .local _ .vmem, ⟨22, _⟩ => ⟨S1x512x2048, .f32⟩
  | .local _ .vmem, ⟨23, _⟩ => ⟨S1024x1024, .bf16⟩
  | .local _ .vmem, ⟨24, _⟩ => ⟨S1024x1024, .bf16⟩
  | .local _ .vmem, ⟨25, _⟩ => ⟨S1024x1024, .bf16⟩
  | .local _ .vmem, ⟨26, _⟩ => ⟨S1024, .f32⟩
  | .local _ .vmem, ⟨27, _⟩ => ⟨S1024x1024, .f32⟩
  | .local _ .vmem, ⟨28, _⟩ => ⟨S1024x1024, .f32⟩
  | _, _ => ⟨S2048x2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18_0 : Ref sig .tc := ⟨.hbm, 26, rfl⟩
abbrev main_v18_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc3_stg3_1 : Ref sig .tc := ⟨.vmem, 20, rfl⟩
abbrev cc3_stg4_0 : Ref sig .tc := ⟨.vmem, 21, rfl⟩
abbrev cc3_stg4_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg3_0 : Ref sig .tc := ⟨.vmem, 27, rfl⟩
abbrev cc4_stg3_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem3_0 : DmaSem sig := 19
abbrev cc3_sem3_1 : DmaSem sig := 20
abbrev cc3_sem4_0 : DmaSem sig := 21
abbrev cc3_sem4_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem3_0 : DmaSem sig := 27
abbrev cc4_sem3_1 : DmaSem sig := 28

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![32, 4], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x512x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S1x2048x64 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, false]

abbrev stage3_2 : Fin 1 → Memref sig .tc .vmem S1x2048x64 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, false]

abbrev stage3_3 : Fin 2 → Memref sig .tc .vmem S1x512x64 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S1x512x2048 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1024x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  shapeCasts_S2048x2x1024_S4096x1024 : S2048x2x1024.ShapeCasts S4096x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  shapeCasts_S4096x1024_S2048x2x1024 : S4096x1024.ShapeCasts S2048x2x1024
  shapeCasts_S2048x2x1024_S2048x2x16x64 : S2048x2x1024.ShapeCasts S2048x2x16x64
  transposes_S2048x2x16x64_S2x16x2048x64_1_2_0_3 : S2048x2x16x64.Transposes [1, 2, 0, 3] S2x16x2048x64
  shapeCasts_S2x16x2048x64_S32x2048x64 : S2x16x2048x64.ShapeCasts S32x2048x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S512x2048_S512 : S512x2048.Reduces [1] S512
  shapeCasts_S512_S512x1 : S512.ShapeCasts S512x1
  broadcasts_S512x1_S512x2048 : S512x1.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  shapeCasts_S512x64_S1x512x64 : S512x64.ShapeCasts S1x512x64
  packedbf16_S1x512x64_S1x512x64_0_0_0 : (Rect.unit (s := S1x512x64) ![0, 0, 0] S1x512x64.size inb_S1x512x64_S1x512x64_0_0_0).PackedRows (EltTy.packing .bf16)
  shapeCasts_S32x2048x2048_S2x16x2048x2048 : S32x2048x2048.ShapeCasts S2x16x2048x2048
  shapeCasts_S32x2048x64_S2x16x2048x64 : S32x2048x64.ShapeCasts S2x16x2048x64
  transposes_S2x16x2048x64_S2048x2x16x64_2_0_1_3 : S2x16x2048x64.Transposes [2, 0, 1, 3] S2048x2x16x64
  shapeCasts_S2048x2x16x64_S2048x2x1024 : S2048x2x16x64.ShapeCasts S2048x2x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  dot_S1024x1024_S1024x1024_S1024x1024_1_1_0_0_n_n_wf : DotDims.WF S1024x1024 S1024x1024 S1024x1024 [1] [1] [0] [0] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x1024.size a
  hwx0_2 : ∀ i : grid0.Coords, EltTy.bits .bf16 = 32 ∨ (Rect.block (s := S4096x1024) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x1024.size a
  hwx1_0 : ∀ i : grid1.Coords, EltTy.bits .f32 = 32 ∨ (Rect.block (s := S4096x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x1024.size a
  hwx1_2 : ∀ i : grid1.Coords, EltTy.bits .bf16 = 32 ∨ (Rect.block (s := S4096x1024) S1024x1024.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x1024.size a
  hwx2_0 : ∀ i : grid2.Coords, EltTy.bits .f32 = 32 ∨ (Rect.block (s := S4096x1024) S1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S4096x1024.size a
  hwx2_2 : ∀ i : grid2.Coords, EltTy.bits .bf16 = 32 ∨ (Rect.block (s := S4096x1024) S1024x1024.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x512x64.size a ≤ S32x2048x64.size a
  hwx3_0 : ∀ i : grid3.Coords, EltTy.bits .bf16 = 32 ∨ (Rect.block (s := S32x2048x64) S1x512x64.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x2048x64.size a ≤ S32x2048x64.size a
  hwx3_1 : ∀ i : grid3.Coords, EltTy.bits .bf16 = 32 ∨ (Rect.block (s := S32x2048x64) S1x2048x64.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x2048x64.size a ≤ S32x2048x64.size a
  hwx3_2 : ∀ i : grid3.Coords, EltTy.bits .bf16 = 32 ∨ (Rect.block (s := S32x2048x64) S1x2048x64.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x512x64.size a ≤ S32x2048x64.size a
  hwx3_3 : ∀ i : grid3.Coords, EltTy.bits .bf16 = 32 ∨ (Rect.block (s := S32x2048x64) S1x512x64.size (cc3_transform_3 i) (hinb3_3 i)).WholeWords (EltTy.packing .bf16)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x512x2048.size a ≤ S32x2048x2048.size a
  hwx3_4 : ∀ i : grid3.Coords, EltTy.bits .f32 = 32 ∨ (Rect.block (s := S32x2048x2048) S1x512x2048.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1024.size a ≤ S4096x1024.size a
  hwx4_0 : ∀ i : grid4.Coords, EltTy.bits .bf16 = 32 ∨ (Rect.block (s := S4096x1024) S1024x1024.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x1024.size a
  hwx4_1 : ∀ i : grid4.Coords, EltTy.bits .bf16 = 32 ∨ (Rect.block (s := S1024x1024) S1024x1024.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1024.size a ≤ S1024.size a
  hwx4_2 : ∀ i : grid4.Coords, EltTy.bits .f32 = 32 ∨ (Rect.block (s := S1024) S1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x1024.size a ≤ S4096x1024.size a
  hwx4_3 : ∀ i : grid4.Coords, EltTy.bits .f32 = 32 ∨ (Rect.block (s := S4096x1024) S1024x1024.size (cc4_transform_3 i) (hinb4_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v6) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v7) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v11) S1x512x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S1x2048x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v17) S1x2048x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v18_0) S1x512x64.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v18_1) S1x512x2048.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v23) S1024x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v24) S1024x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg7) S1024.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v25) S1024x1024.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S2048x2x1024 : Shape := ⟨3, ![2048, 2, 1024]⟩
abbrev S1024x1024 : Shape := ⟨2, ![1024, 1024]⟩
abbrev S1024 : Shape := ⟨1, ![1024]⟩
abbrev S2048x2x16x64 : Shape := ⟨4, ![2048, 2, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩
abbrev S1x1x1024 : Shape := ⟨3, ![1, 1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S2048x2x1024, .f32⟩
  | .hbm, ⟨1, _⟩ => ⟨S2048x2x1024, .f32⟩
  | .hbm, ⟨2, _⟩ => ⟨S2048x2x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S2048x2x1024, .f32⟩
  | .hbm, ⟨9, _⟩ => ⟨S2048x2x16x64, .f32⟩
  | .hbm, ⟨10, _⟩ => ⟨S2x16x2048x64, .f32⟩
  | .hbm, ⟨11, _⟩ => ⟨S2048x2x1024, .f32⟩
  | .hbm, ⟨12, _⟩ => ⟨S2048x2x16x64, .f32⟩
  | .hbm, ⟨13, _⟩ => ⟨S2x16x2048x64, .f32⟩
  | .hbm, ⟨14, _⟩ => ⟨S2048x2x1024, .f32⟩
  | .hbm, ⟨15, _⟩ => ⟨S2048x2x16x64, .f32⟩
  | .hbm, ⟨16, _⟩ => ⟨S2x16x2048x64, .f32⟩
  | .hbm, ⟨17, _⟩ => ⟨S2x16x2048x2048, .f32⟩
  | .hbm, ⟨18, _⟩ => ⟨S_, .f32⟩
  | .hbm, ⟨19, _⟩ => ⟨S2x16x2048x2048, .f32⟩
  | .hbm, ⟨20, _⟩ => ⟨S2x16x2048x2048, .f32⟩
  | .hbm, ⟨21, _⟩ => ⟨S_, .f32⟩
  | .hbm, ⟨22, _⟩ => ⟨S2x16x2048, .f32⟩
  | .hbm, ⟨23, _⟩ => ⟨S_, .f32⟩
  | .hbm, ⟨24, _⟩ => ⟨S2x16x2048, .f32⟩
  | .hbm, ⟨25, _⟩ => ⟨S2x16x2048, .f32⟩
  | .hbm, ⟨26, _⟩ => ⟨S2x16x2048x1, .f32⟩
  | .hbm, ⟨27, _⟩ => ⟨S2x16x2048x2048, .f32⟩
  | .hbm, ⟨28, _⟩ => ⟨S2x16x2048x2048, .f32⟩
  | .hbm, ⟨29, _⟩ => ⟨S2x16x2048x2048, .f32⟩
  | .hbm, ⟨30, _⟩ => ⟨S_, .f32⟩
  | .hbm, ⟨31, _⟩ => ⟨S2x16x2048, .f32⟩
  | .hbm, ⟨32, _⟩ => ⟨S2x16x2048x1, .f32⟩
  | .hbm, ⟨33, _⟩ => ⟨S2x16x2048x2048, .f32⟩
  | .hbm, ⟨34, _⟩ => ⟨S2x16x2048x2048, .f32⟩
  | .hbm, ⟨35, _⟩ => ⟨S2x16x2048x64, .f32⟩
  | .hbm, ⟨36, _⟩ => ⟨S2048x2x16x64, .f32⟩
  | .hbm, ⟨37, _⟩ => ⟨S2048x2x1024, .f32⟩
  | .hbm, ⟨38, _⟩ => ⟨S2048x2x1024, .f32⟩
  | .hbm, ⟨39, _⟩ => ⟨S1x1x1024, .f32⟩
  | .hbm, ⟨40, _⟩ => ⟨S2048x2x1024, .f32⟩
  | .hbm, ⟨41, _⟩ => ⟨S2048x2x1024, .f32⟩
  | _, _ => ⟨S2048x2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]

class Facts₀ : Prop where
  shapeCasts_S2048x2x1024_S2048x2x16x64 : S2048x2x1024.ShapeCasts S2048x2x16x64
  transposes_S2048x2x16x64_S2x16x2048x64_1_2_0_3 : S2048x2x16x64.Transposes [1, 2, 0, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2048x2x16x64_2_0_1_3 : S2x16x2048x64.Transposes [2, 0, 1, 3] S2048x2x16x64
  shapeCasts_S2048x2x16x64_S2048x2x1024 : S2048x2x16x64.ShapeCasts S2048x2x1024
  bcast_S1024_S1x1x1024_2 : S1024.BroadcastsInDim S1x1x1024 (![2] : Fin 1 → Fin S1x1x1024.rank)
  bcast_S1x1x1024_S2048x2x1024_0_1_2 : S1x1x1024.BroadcastsInDim S2048x2x1024 (![0, 1, 2] : Fin 3 → Fin S2048x2x1024.rank)
  dot_S2048x2x1024_S1024x1024_S2048x2x1024_2_1_01_0_n_n_wf : DotDims.WF S2048x2x1024 S1024x1024 S2048x2x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2048x2x1024_S1024x1024_S2048x2x1024_2_1_01_0_n_n : DotDims S2048x2x1024 S1024x1024 S2048x2x1024 where
  lhsContracting := [2]
  rhsContracting := [1]
  lhsNonContracting := [0, 1]
  rhsNonContracting := [0]
  lhsBatch := []
  rhsBatch := []
  wf := dot_S2048x2x1024_S1024x1024_S2048x2x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Spec.lean ====
/-
  Multi-head attention, as plain functions of real arrays.

  Everything here is stated over the extended reals, index by index, with no program in sight: the
  product of a row matrix with the transpose of a weight matrix (`rowsDot`), a softmax row
  (`softmaxRow`: the exponentials of a row shifted by its maximum, divided by their sum), the
  attention weights of 32 (batch, head) pairs (`attnArr`), the weighted sums of the value rows
  (`ctxArr`), the output projection with its bias (`rowsDotBias`), and the two re-layouts between
  a [4096, 1024] matrix of token rows and the [32, 2048, 64] array of per-head rows
  (`toHeads`, `fromHeads`).  `attnOut` and `finalOut` compose them into the two results.
-/
import Idealize.ShloMosaic.PureOps.Ideal
import Idealize.ShloMosaic.Lib.ValueIdx
import Idealize.ShloMosaic.Lib.Pipeline.Value

noncomputable section

namespace Cert.Attn

open Idealize.ShloMosaic Idealize.ShloMosaic.ValueIdx

abbrev T4096x1024 : Shape := ⟨2, ![4096, 1024]⟩
abbrev T1024x1024 : Shape := ⟨2, ![1024, 1024]⟩
abbrev T1024 : Shape := ⟨1, ![1024]⟩
abbrev T2048x2x1024 : Shape := ⟨3, ![2048, 2, 1024]⟩
abbrev T2048x2x16x64 : Shape := ⟨4, ![2048, 2, 16, 64]⟩
abbrev T2x16x2048x64 : Shape := ⟨4, ![2, 16, 2048, 64]⟩
abbrev T32x2048x64 : Shape := ⟨3, ![32, 2048, 64]⟩
abbrev T32x2048x2048 : Shape := ⟨3, ![32, 2048, 2048]⟩
abbrev T2x16x2048x2048 : Shape := ⟨4, ![2, 16, 2048, 2048]⟩

/-- The value -∞ a row maximum starts from. -/
abbrev negInf : EReal := Ideal.ofBits .f32 0xFF800000#32
/-- The scale 1/8 = 64^(-1/2) of the scores (the same word in both programs, never evaluated). -/
abbrev scaleC : EReal := Ideal.ofBits .f32 0x3E000000#32

/-- Row r of X against row e of W: (X Wᵀ)[r, e] = ∑ₖ X[r, k] · W[e, k]. -/
def rowsDot (X : T4096x1024.Idx → EReal) (W : T1024x1024.Idx → EReal) : T4096x1024.Idx → EReal :=
  fun i => ∑ k : Fin 1024, X (ix2 (⟨(i 0).val, (i 0).isLt⟩ : Fin 4096) k) * W (ix2 (⟨(i 1).val, (i 1).isLt⟩ : Fin 1024) k)

/-- The same with a bias per output column added. -/
def rowsDotBias (X : T4096x1024.Idx → EReal) (W : T1024x1024.Idx → EReal) (b : T1024.Idx → EReal) : T4096x1024.Idx → EReal :=
  fun i => rowsDot X W i + b (ix1 (⟨(i 1).val, (i 1).isLt⟩ : Fin 1024))

/-- The maximum of a row of 2048 scores, from -∞. -/
def rowMax (r : Fin 2048 → EReal) : EReal := (Finset.univ : Finset (Fin 2048)).fold max negInf r

/-- Softmax of a row at column j: exp (r j - max r) / ∑ⱼ' exp (r j' - max r). -/
def softmaxRow (r : Fin 2048 → EReal) (j : Fin 2048) : EReal :=
  Ideal.div (Ideal.exp (r j - rowMax r)) (∑ j' : Fin 2048, Ideal.exp (r j' - rowMax r))

/-- The scaled scores of query row i of pair bh against every key row. -/
def scoreRow (Q K : T32x2048x64.Idx → EReal) (bh : Fin 32) (i : Fin 2048) : Fin 2048 → EReal :=
  fun j => (∑ d : Fin 64, Q (ix3 bh i d) * K (ix3 bh j d)) * scaleC

/-- The attention weights: the softmax over the keys of each query row's scores. -/
def attnArr (Q K : T32x2048x64.Idx → EReal) : T32x2048x2048.Idx → EReal :=
  fun x => softmaxRow (scoreRow Q K (⟨(x 0).val, (x 0).isLt⟩ : Fin 32) (⟨(x 1).val, (x 1).isLt⟩ : Fin 2048)) (⟨(x 2).val, (x 2).isLt⟩ : Fin 2048)

/-- The attended values: each query row's weights against the value rows of its pair. -/
def ctxArr (Q K V : T32x2048x64.Idx → EReal) : T32x2048x64.Idx → EReal :=
  fun x => ∑ j : Fin 2048, attnArr Q K (ix3 (⟨(x 0).val, (x 0).isLt⟩ : Fin 32) (⟨(x 1).val, (x 1).isLt⟩ : Fin 2048) j)
    * V (ix3 (⟨(x 0).val, (x 0).isLt⟩ : Fin 32) j (⟨(x 2).val, (x 2).isLt⟩ : Fin 64))

/-- Token rows [4096 = 2048·2, 1024 = 16·64] to per-head rows [32 = 2·16, 2048, 64]: (n, b, h, d) ↦ (b, h, n, d). -/
def toHeads (y : T4096x1024.Idx → EReal) : T32x2048x64.Idx → EReal :=
  shapeCast T32x2048x64
    (transpose T2x16x2048x64 [1, 2, 0, 3]
      (shapeCast T2048x2x16x64 (shapeCast T2048x2x1024 y (by decide)) (by decide)) (by decide)) (by decide)

/-- Per-head rows back to token rows: (b, h, n, d) ↦ (n, b, h, d). -/
def fromHeads (o : T32x2048x64.Idx → EReal) : T4096x1024.Idx → EReal :=
  shapeCast T4096x1024
    (shapeCast T2048x2x1024
      (transpose T2048x2x16x64 [2, 0, 1, 3] (shapeCast T2x16x2048x64 o (by decide)) (by decide)) (by decide)) (by decide)

/-- The three projected inputs, per head. -/
def headsOf (x : T2048x2x1024.Idx → EReal) (w : T1024x1024.Idx → EReal) : T32x2048x64.Idx → EReal :=
  toHeads (rowsDot (shapeCast T4096x1024 x (by decide)) w)

/-- SECOND RESULT: the attention weights as [2, 16, 2048, 2048]. -/
def attnOut (a0 a1 : T2048x2x1024.Idx → EReal) (a3 a4 : T1024x1024.Idx → EReal) : T2x16x2048x2048.Idx → EReal :=
  shapeCast T2x16x2048x2048 (attnArr (headsOf a0 a3) (headsOf a1 a4)) (by decide)

/-- FIRST RESULT: the attended values re-laid as token rows, projected by Wo, plus the bias, as [2048, 2, 1024]. -/
def finalOut (a0 a1 a2 : T2048x2x1024.Idx → EReal) (a3 a4 a5 a6 : T1024x1024.Idx → EReal) (a7 : T1024.Idx → EReal) :
    T2048x2x1024.Idx → EReal :=
  shapeCast T2048x2x1024
    (rowsDotBias (fromHeads (ctxArr (headsOf a0 a3) (headsOf a1 a4) (headsOf a2 a5))) a6 a7) (by decide)

end Cert.Attn

end
-- ==== Proof.Region0.lean ====
/-
  A projection's array.

  This pallas_call walks four blocks of 1024 token rows; at block t its body multiplies the block of the
  row array by the transpose of the whole weight (one matrix product into a zero accumulator; the two changes of
  float format are the identity on the extended reals) and stores the product as block t of the output.  So the
  output array ends, entry by entry, at `Cert.Attn.rowsDot`: row r of the row array against row e of the weight.
  First the block product at an index, then what a point writes back, then the cover of the array by the four
  blocks.
-/
import proofs.«400919_j3513283248898_3_alg».proof.Proof.Gen.KernelIdeal.Frame
import proofs.«400919_j3513283248898_3_alg».proof.Proof.Spec
import Idealize.ShloMosaic.PureOps.Ideal.Laws
import Idealize.ShloMosaic.Lib.Pipeline.Value
import Idealize.ShloMosaic.Lib.ValueIdx
set_option maxRecDepth 16384

noncomputable section

namespace Cert.KernelIdeal.Region0

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-! ## The block product at an index -/

/-- The left operand of the block product is read at the output's row, -/
theorem blockDot_lhs_row (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
/-- and at the contraction's position in that row. -/
theorem blockDot_lhs_col (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
/-- The right operand is read at the row the output's column names, -/
theorem blockDot_rhs_row (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
/-- and at the contraction's position in that row. -/
theorem blockDot_rhs_col (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The product of two blocks into the zero block, at entry (p, q): ∑ₖ a[p, k] · b[q, k]. -/
theorem blockDot_apply (a b : FVec Ideal S1024x1024 .bf16) (p q : Fin 1024) :
    FloatOps.matmul dot_S1024x1024_S1024x1024_S1024x1024_1_1_0_0_n_n none a b (constant (F := Ideal) S1024x1024 .f32 0x00000000#32) (ix2 p q)
      = ∑ k : Fin 1024, a (ix2 p k) * b (ix2 q k) := by
  rw [Ideal.matmul_constant_zero_apply, ← Equiv.sum_comp (ValueIdx.contrEquiv1 dot_S1024x1024_S1024x1024_S1024x1024_1_1_0_0_n_n 1024 rfl rfl).symm]
  refine Finset.sum_congr rfl fun k _ => ?_
  have hk := ValueIdx.contrEquiv1_symm_val dot_S1024x1024_S1024x1024_S1024x1024_1_1_0_0_n_n 1024 rfl rfl k
  have el : dot_S1024x1024_S1024x1024_S1024x1024_1_1_0_0_n_n.lhsIdx (ix2 p q) ((ValueIdx.contrEquiv1 dot_S1024x1024_S1024x1024_S1024x1024_1_1_0_0_n_n 1024 rfl rfl).symm k) = ix2 p k := funext fun a => Fin.ext (by
    match a with
    | ⟨0, _⟩ => exact blockDot_lhs_row _ _
    | ⟨1, _⟩ => exact (blockDot_lhs_col _ _).trans hk)
  have er : dot_S1024x1024_S1024x1024_S1024x1024_1_1_0_0_n_n.rhsIdx (ix2 p q) ((ValueIdx.contrEquiv1 dot_S1024x1024_S1024x1024_S1024x1024_1_1_0_0_n_n 1024 rfl rfl).symm k) = ix2 q k := funext fun a => Fin.ext (by
    match a with
    | ⟨0, _⟩ => exact blockDot_rhs_row _ _
    | ⟨1, _⟩ => exact (blockDot_rhs_col _ _).trans hk)
  rw [el, er]

/-- The body's payload at entry (p, q) of the block: ∑ₖ x0[p, k] · x1[q, k]. -/
theorem k0_pay1_apply (x0 x1 : Vec Ideal S1024x1024 .f32) (p q : Fin 1024) :
    k0_pay1 x0 x1 (ix2 p q) = ∑ k : Fin 1024, x0 (ix2 p k) * x1 (ix2 q k) := by
  unfold k0_pay1
  refine (blockDot_apply _ _ p q).trans ?_
  refine Finset.sum_congr rfl fun k _ => ?_
  rw [ValueIdx.truncf_apply, ValueIdx.truncf_apply, shapeCast_self]

/-! ## From blocks to the array -/

/-- The body's one load per operand and its one store are at the block's origin. -/
theorem zero_offsets : (![0, 0] : Fin 2 → Nat) = fun _ => 0 := funext fun a => by fin_cases a <;> rfl

/-- The printed index maps, decided over the grid: the two row windows are at block row t, the whole-array window at its one block. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val ≤ 3 :=
  (by decide +kernel : ∀ t : Fin grid0.N, _)

/-- Block t of the left array is its rows 1024 t … 1024 t + 1023. -/
theorem iblk0_0_apply (c : Dev nD) (t : Fin cfg0.N) (p k : Fin 1024) (i : S4096x1024.Idx)
    (h0 : (i 0).val = t.val * 1024 + p.val) (h1 : (i 1).val = k.val) :
    (iblk0 V c 0 t : Vec Ideal S1024x1024 .f32) (ix2 p k) = (V c main_v0 : S4096x1024.Idx → EReal) i := by
  obtain ⟨e0, e1, -⟩ := index_facts t
  unfold iblk0
  rw [View.read_apply]
  show V c main_v0 _ = V c main_v0 _
  congr 1
  funext a; apply Fin.ext
  match a with
  | ⟨0, _⟩ => show win0_0.index t (0 : Fin 2) * 1024 + 1 * p.val = (i 0).val; rw [e0, h0]; omega
  | ⟨1, _⟩ => show win0_0.index t (1 : Fin 2) * 1024 + 1 * k.val = (i 1).val; rw [e1, h1]; omega

/-- The one block of the right array is the array. -/
theorem iblk0_1_apply (c : Dev nD) (t : Fin cfg0.N) (q k : Fin 1024) (i : S1024x1024.Idx)
    (h0 : (i 0).val = q.val) (h1 : (i 1).val = k.val) :
    (iblk0 V c 1 t : Vec Ideal S1024x1024 .f32) (ix2 q k) = (V c main_arg3 : S1024x1024.Idx → EReal) i := by
  obtain ⟨-, -, e0, e1, -⟩ := index_facts t
  unfold iblk0
  rw [View.read_apply]
  show V c main_arg3 _ = V c main_arg3 _
  congr 1
  funext a; apply Fin.ext
  match a with
  | ⟨0, _⟩ => show win0_1.index t (0 : Fin 2) * 1024 + 1 * q.val = (i 0).val; rw [e0, h0]; omega
  | ⟨1, _⟩ => show win0_1.index t (1 : Fin 2) * 1024 + 1 * k.val = (i 1).val; rw [e1, h1]; omega

/-- WHAT POINT t WRITES BACK is block t of the rows' products. -/
theorem flushed_eq (c : Dev nD) (t : Fin cfg0.N) :
    (dat0 (F := Ideal) V c).flushed 2 t
      = ((cfg0.win 2).blk t).view.read (Elt Ideal) (Cert.Attn.rowsDot (V c main_v0) (V c main_arg3)) := by
  show (cfg0.win 2).cut (grid0.coords t) ((dat0 V c).after 2 t) = _
  rw [after0_2]
  unfold out0_2
  rw [View.canon_unit_zero zero_offsets]
  simp only [View.ld_unit_zero (S := S1024x1024) zero_offsets]
  obtain ⟨-, -, -, -, e0, e1, -⟩ := index_facts t
  funext j
  obtain ⟨p, q, rfl⟩ : ∃ (p : Fin 1024) (q : Fin 1024), j = ix2 p q := ⟨j 0, j 1, eq_ix2 j⟩
  show k0_pay1 (iblk0 V c 0 t) (iblk0 V c 1 t) (ix2 p q)
    = Cert.Attn.rowsDot (V c main_v0) (V c main_arg3) (((cfg0.win 2).blk t).view.emb (ix2 p q))
  refine (k0_pay1_apply _ _ p q).trans ?_
  unfold Cert.Attn.rowsDot
  refine Finset.sum_congr rfl fun k _ => ?_
  have hl := iblk0_0_apply V c t p k (ix2 ⟨((((cfg0.win 2).blk t).view.emb (ix2 p q)) 0).val, ((((cfg0.win 2).blk t).view.emb (ix2 p q)) 0).isLt⟩ k)
    (by show win0_2.index t (0 : Fin 2) * 1024 + 1 * p.val = _; rw [e0]; omega) rfl
  have hr := iblk0_1_apply V c t q k (ix2 ⟨((((cfg0.win 2).blk t).view.emb (ix2 p q)) 1).val, ((((cfg0.win 2).blk t).view.emb (ix2 p q)) 1).isLt⟩ k)
    (by show win0_2.index t (1 : Fin 2) * 1024 + 1 * q.val = _; rw [e1]; omega) rfl
  rw [hl, hr]

/-- An index of the array is in point t's block iff each coordinate is in the block's range on its axis. -/
theorem mem_blk (t : Fin cfg0.N) (i : S4096x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v1).slice (win0_2.rect t)).set ↔ _
  rw [View.set_slice_whole, Rect.mem_set_unit]
  exact Iff.rfl

/-- Every row of the array is in the block of the point its block row names. -/
theorem covered (i : S4096x1024.Idx) :
    ∃ t : Fin cfg0.N, (cfg0.win 2).flush t = true ∧ i ∈ ((cfg0.win 2).blk t).view.set := by
  have hi0 : (i 0).val < 4096 := (i 0).isLt
  have hi1 : (i 1).val < 1024 := (i 1).isLt
  have hN : (i 0).val / 1024 < cfg0.N := by show (i 0).val / 1024 < 4; omega
  refine ⟨⟨(i 0).val / 1024, hN⟩, flush0_2 _, ?_⟩
  rw [mem_blk]
  obtain ⟨-, -, -, -, e0, e1, -⟩ := index_facts ⟨(i 0).val / 1024, hN⟩
  intro a
  match a with
  | ⟨0, _⟩ => show win0_2.index ⟨(i 0).val / 1024, hN⟩ (0 : Fin 2) * 1024 ≤ (i 0).val ∧ (i 0).val < win0_2.index ⟨(i 0).val / 1024, hN⟩ (0 : Fin 2) * 1024 + 1024; rw [e0]; show (i 0).val / 1024 * 1024 ≤ (i 0).val ∧ (i 0).val < (i 0).val / 1024 * 1024 + 1024; omega
  | ⟨1, _⟩ => show win0_2.index ⟨(i 0).val / 1024, hN⟩ (1 : Fin 2) * 1024 ≤ (i 1).val ∧ (i 1).val < win0_2.index ⟨(i 0).val / 1024, hN⟩ (1 : Fin 2) * 1024 + 1024; rw [e1]; omega

/-- THE ARRAY after the region: every entry the product of its row of the left array with its column's row of the right. -/
theorem arr0 (c : Dev nD) :
    (dat0 (F := Ideal) V c).arrAt 2 cfg0.N = Cert.Attn.rowsDot (V c main_v0) (V c main_arg3) :=
  (dat0 (F := Ideal) V c).arrAt_eq_of_cover 2 (Cert.Attn.rowsDot (V c main_v0) (V c main_arg3))
    (fun t _ => flushed_eq V c t) covered

end Cert.KernelIdeal.Region0

end
-- ==== Proof.Region1.lean ====
/-
  A projection's array.

  This pallas_call walks four blocks of 1024 token rows; at block t its body multiplies the block of the
  row array by the transpose of the whole weight (one matrix product into a zero accumulator; the two changes of
  float format are the identity on the extended reals) and stores the product as block t of the output.  So the
  output array ends, entry by entry, at `Cert.Attn.rowsDot`: row r of the row array against row e of the weight.
  First the block product at an index, then what a point writes back, then the cover of the array by the four
  blocks.
-/
import proofs.«400919_j3513283248898_3_alg».proof.Proof.Gen.KernelIdeal.Frame
import proofs.«400919_j3513283248898_3_alg».proof.Proof.Spec
import Idealize.ShloMosaic.PureOps.Ideal.Laws
import Idealize.ShloMosaic.Lib.Pipeline.Value
import Idealize.ShloMosaic.Lib.ValueIdx
set_option maxRecDepth 16384

noncomputable section

namespace Cert.KernelIdeal.Region1

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-! ## The block product at an index -/

/-- The left operand of the block product is read at the output's row, -/
theorem blockDot_lhs_row (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
/-- and at the contraction's position in that row. -/
theorem blockDot_lhs_col (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
/-- The right operand is read at the row the output's column names, -/
theorem blockDot_rhs_row (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
/-- and at the contraction's position in that row. -/
theorem blockDot_rhs_col (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The product of two blocks into the zero block, at entry (p, q): ∑ₖ a[p, k] · b[q, k]. -/
theorem blockDot_apply (a b : FVec Ideal S1024x1024 .bf16) (p q : Fin 1024) :
    FloatOps.matmul dot_S1024x1024_S1024x1024_S1024x1024_1_1_0_0_n_n none a b (constant (F := Ideal) S1024x1024 .f32 0x00000000#32) (ix2 p q)
      = ∑ k : Fin 1024, a (ix2 p k) * b (ix2 q k) := by
  rw [Ideal.matmul_constant_zero_apply, ← Equiv.sum_comp (ValueIdx.contrEquiv1 dot_S1024x1024_S1024x1024_S1024x1024_1_1_0_0_n_n 1024 rfl rfl).symm]
  refine Finset.sum_congr rfl fun k _ => ?_
  have hk := ValueIdx.contrEquiv1_symm_val dot_S1024x1024_S1024x1024_S1024x1024_1_1_0_0_n_n 1024 rfl rfl k
  have el : dot_S1024x1024_S1024x1024_S1024x1024_1_1_0_0_n_n.lhsIdx (ix2 p q) ((ValueIdx.contrEquiv1 dot_S1024x1024_S1024x1024_S1024x1024_1_1_0_0_n_n 1024 rfl rfl).symm k) = ix2 p k := funext fun a => Fin.ext (by
    match a with
    | ⟨0, _⟩ => exact blockDot_lhs_row _ _
    | ⟨1, _⟩ => exact (blockDot_lhs_col _ _).trans hk)
  have er : dot_S1024x1024_S1024x1024_S1024x1024_1_1_0_0_n_n.rhsIdx (ix2 p q) ((ValueIdx.contrEquiv1 dot_S1024x1024_S1024x1024_S1024x1024_1_1_0_0_n_n 1024 rfl rfl).symm k) = ix2 q k := funext fun a => Fin.ext (by
    match a with
    | ⟨0, _⟩ => exact blockDot_rhs_row _ _
    | ⟨1, _⟩ => exact (blockDot_rhs_col _ _).trans hk)
  rw [el, er]

/-- The body's payload at entry (p, q) of the block: ∑ₖ x0[p, k] · x1[q, k]. -/
theorem k1_pay1_apply (x0 x1 : Vec Ideal S1024x1024 .f32) (p q : Fin 1024) :
    k1_pay1 x0 x1 (ix2 p q) = ∑ k : Fin 1024, x0 (ix2 p k) * x1 (ix2 q k) := by
  unfold k1_pay1
  refine (blockDot_apply _ _ p q).trans ?_
  refine Finset.sum_congr rfl fun k _ => ?_
  rw [ValueIdx.truncf_apply, ValueIdx.truncf_apply, shapeCast_self]

/-! ## From blocks to the array -/

/-- The body's one load per operand and its one store are at the block's origin. -/
theorem zero_offsets : (![0, 0] : Fin 2 → Nat) = fun _ => 0 := funext fun a => by fin_cases a <;> rfl

/-- The printed index maps, decided over the grid: the two row windows are at block row t, the whole-array window at its one block. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 ∧ t.val ≤ 3 :=
  (by decide +kernel : ∀ t : Fin grid1.N, _)

/-- Block t of the left array is its rows 1024 t … 1024 t + 1023. -/
theorem iblk1_0_apply (c : Dev nD) (t : Fin cfg1.N) (p k : Fin 1024) (i : S4096x1024.Idx)
    (h0 : (i 0).val = t.val * 1024 + p.val) (h1 : (i 1).val = k.val) :
    (iblk1 V c 0 t : Vec Ideal S1024x1024 .f32) (ix2 p k) = (V c main_v3 : S4096x1024.Idx → EReal) i := by
  obtain ⟨e0, e1, -⟩ := index_facts t
  unfold iblk1
  rw [View.read_apply]
  show V c main_v3 _ = V c main_v3 _
  congr 1
  funext a; apply Fin.ext
  match a with
  | ⟨0, _⟩ => show win1_0.index t (0 : Fin 2) * 1024 + 1 * p.val = (i 0).val; rw [e0, h0]; omega
  | ⟨1, _⟩ => show win1_0.index t (1 : Fin 2) * 1024 + 1 * k.val = (i 1).val; rw [e1, h1]; omega

/-- The one block of the right array is the array. -/
theorem iblk1_1_apply (c : Dev nD) (t : Fin cfg1.N) (q k : Fin 1024) (i : S1024x1024.Idx)
    (h0 : (i 0).val = q.val) (h1 : (i 1).val = k.val) :
    (iblk1 V c 1 t : Vec Ideal S1024x1024 .f32) (ix2 q k) = (V c main_arg4 : S1024x1024.Idx → EReal) i := by
  obtain ⟨-, -, e0, e1, -⟩ := index_facts t
  unfold iblk1
  rw [View.read_apply]
  show V c main_arg4 _ = V c main_arg4 _
  congr 1
  funext a; apply Fin.ext
  match a with
  | ⟨0, _⟩ => show win1_1.index t (0 : Fin 2) * 1024 + 1 * q.val = (i 0).val; rw [e0, h0]; omega
  | ⟨1, _⟩ => show win1_1.index t (1 : Fin 2) * 1024 + 1 * k.val = (i 1).val; rw [e1, h1]; omega

/-- WHAT POINT t WRITES BACK is block t of the rows' products. -/
theorem flushed_eq (c : Dev nD) (t : Fin cfg1.N) :
    (dat1 (F := Ideal) V c).flushed 2 t
      = ((cfg1.win 2).blk t).view.read (Elt Ideal) (Cert.Attn.rowsDot (V c main_v3) (V c main_arg4)) := by
  show (cfg1.win 2).cut (grid1.coords t) ((dat1 V c).after 2 t) = _
  rw [after1_2]
  unfold out1_2
  rw [View.canon_unit_zero zero_offsets]
  simp only [View.ld_unit_zero (S := S1024x1024) zero_offsets]
  obtain ⟨-, -, -, -, e0, e1, -⟩ := index_facts t
  funext j
  obtain ⟨p, q, rfl⟩ : ∃ (p : Fin 1024) (q : Fin 1024), j = ix2 p q := ⟨j 0, j 1, eq_ix2 j⟩
  show k1_pay1 (iblk1 V c 0 t) (iblk1 V c 1 t) (ix2 p q)
    = Cert.Attn.rowsDot (V c main_v3) (V c main_arg4) (((cfg1.win 2).blk t).view.emb (ix2 p q))
  refine (k1_pay1_apply _ _ p q).trans ?_
  unfold Cert.Attn.rowsDot
  refine Finset.sum_congr rfl fun k _ => ?_
  have hl := iblk1_0_apply V c t p k (ix2 ⟨((((cfg1.win 2).blk t).view.emb (ix2 p q)) 0).val, ((((cfg1.win 2).blk t).view.emb (ix2 p q)) 0).isLt⟩ k)
    (by show win1_2.index t (0 : Fin 2) * 1024 + 1 * p.val = _; rw [e0]; omega) rfl
  have hr := iblk1_1_apply V c t q k (ix2 ⟨((((cfg1.win 2).blk t).view.emb (ix2 p q)) 1).val, ((((cfg1.win 2).blk t).view.emb (ix2 p q)) 1).isLt⟩ k)
    (by show win1_2.index t (1 : Fin 2) * 1024 + 1 * q.val = _; rw [e1]; omega) rfl
  rw [hl, hr]

/-- An index of the array is in point t's block iff each coordinate is in the block's range on its axis. -/
theorem mem_blk (t : Fin cfg1.N) (i : S4096x1024.Idx) :
    i ∈ ((cfg1.win 2).blk t).view.set ↔ ∀ a : Fin 2, win1_2.index t a * S1024x1024.size a ≤ (i a).val ∧ (i a).val < win1_2.index t a * S1024x1024.size a + S1024x1024.size a := by
  show i ∈ ((View.whole main_v4).slice (win1_2.rect t)).set ↔ _
  rw [View.set_slice_whole, Rect.mem_set_unit]
  exact Iff.rfl

/-- Every row of the array is in the block of the point its block row names. -/
theorem covered (i : S4096x1024.Idx) :
    ∃ t : Fin cfg1.N, (cfg1.win 2).flush t = true ∧ i ∈ ((cfg1.win 2).blk t).view.set := by
  have hi0 : (i 0).val < 4096 := (i 0).isLt
  have hi1 : (i 1).val < 1024 := (i 1).isLt
  have hN : (i 0).val / 1024 < cfg1.N := by show (i 0).val / 1024 < 4; omega
  refine ⟨⟨(i 0).val / 1024, hN⟩, flush1_2 _, ?_⟩
  rw [mem_blk]
  obtain ⟨-, -, -, -, e0, e1, -⟩ := index_facts ⟨(i 0).val / 1024, hN⟩
  intro a
  match a with
  | ⟨0, _⟩ => show win1_2.index ⟨(i 0).val / 1024, hN⟩ (0 : Fin 2) * 1024 ≤ (i 0).val ∧ (i 0).val < win1_2.index ⟨(i 0).val / 1024, hN⟩ (0 : Fin 2) * 1024 + 1024; rw [e0]; show (i 0).val / 1024 * 1024 ≤ (i 0).val ∧ (i 0).val < (i 0).val / 1024 * 1024 + 1024; omega
  | ⟨1, _⟩ => show win1_2.index ⟨(i 0).val / 1024, hN⟩ (1 : Fin 2) * 1024 ≤ (i 1).val ∧ (i 1).val < win1_2.index ⟨(i 0).val / 1024, hN⟩ (1 : Fin 2) * 1024 + 1024; rw [e1]; omega

/-- THE ARRAY after the region: every entry the product of its row of the left array with its column's row of the right. -/
theorem arr1 (c : Dev nD) :
    (dat1 (F := Ideal) V c).arrAt 2 cfg1.N = Cert.Attn.rowsDot (V c main_v3) (V c main_arg4) :=
  (dat1 (F := Ideal) V c).arrAt_eq_of_cover 2 (Cert.Attn.rowsDot (V c main_v3) (V c main_arg4))
    (fun t _ => flushed_eq V c t) covered

end Cert.KernelIdeal.Region1

end
-- ==== Proof.Region2.lean ====
/-
  A projection's array.

  This pallas_call walks four blocks of 1024 token rows; at block t its body multiplies the block of the
  row array by the transpose of the whole weight (one matrix product into a zero accumulator; the two changes of
  float format are the identity on the extended reals) and stores the product as block t of the output.  So the
  output array ends, entry by entry, at `Cert.Attn.rowsDot`: row r of the row array against row e of the weight.
  First the block product at an index, then what a point writes back, then the cover of the array by the four
  blocks.
-/
import proofs.«400919_j3513283248898_3_alg».proof.Proof.Gen.KernelIdeal.Frame
import proofs.«400919_j3513283248898_3_alg».proof.Proof.Spec
import Idealize.ShloMosaic.PureOps.Ideal.Laws
import Idealize.ShloMosaic.Lib.Pipeline.Value
import Idealize.ShloMosaic.Lib.ValueIdx
set_option maxRecDepth 16384

noncomputable section

namespace Cert.KernelIdeal.Region2

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-! ## The block product at an index -/

/-- The left operand of the block product is read at the output's row, -/
theorem blockDot_lhs_row (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
/-- and at the contraction's position in that row. -/
theorem blockDot_lhs_col (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
/-- The right operand is read at the row the output's column names, -/
theorem blockDot_rhs_row (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
/-- and at the contraction's position in that row. -/
theorem blockDot_rhs_col (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The product of two blocks into the zero block, at entry (p, q): ∑ₖ a[p, k] · b[q, k]. -/
theorem blockDot_apply (a b : FVec Ideal S1024x1024 .bf16) (p q : Fin 1024) :
    FloatOps.matmul dot_S1024x1024_S1024x1024_S1024x1024_1_1_0_0_n_n none a b (constant (F := Ideal) S1024x1024 .f32 0x00000000#32) (ix2 p q)
      = ∑ k : Fin 1024, a (ix2 p k) * b (ix2 q k) := by
  rw [Ideal.matmul_constant_zero_apply, ← Equiv.sum_comp (ValueIdx.contrEquiv1 dot_S1024x1024_S1024x1024_S1024x1024_1_1_0_0_n_n 1024 rfl rfl).symm]
  refine Finset.sum_congr rfl fun k _ => ?_
  have hk := ValueIdx.contrEquiv1_symm_val dot_S1024x1024_S1024x1024_S1024x1024_1_1_0_0_n_n 1024 rfl rfl k
  have el : dot_S1024x1024_S1024x1024_S1024x1024_1_1_0_0_n_n.lhsIdx (ix2 p q) ((ValueIdx.contrEquiv1 dot_S1024x1024_S1024x1024_S1024x1024_1_1_0_0_n_n 1024 rfl rfl).symm k) = ix2 p k := funext fun a => Fin.ext (by
    match a with
    | ⟨0, _⟩ => exact blockDot_lhs_row _ _
    | ⟨1, _⟩ => exact (blockDot_lhs_col _ _).trans hk)
  have er : dot_S1024x1024_S1024x1024_S1024x1024_1_1_0_0_n_n.rhsIdx (ix2 p q) ((ValueIdx.contrEquiv1 dot_S1024x1024_S1024x1024_S1024x1024_1_1_0_0_n_n 1024 rfl rfl).symm k) = ix2 q k := funext fun a => Fin.ext (by
    match a with
    | ⟨0, _⟩ => exact blockDot_rhs_row _ _
    | ⟨1, _⟩ => exact (blockDot_rhs_col _ _).trans hk)
  rw [el, er]

/-- The body's payload at entry (p, q) of the block: ∑ₖ x0[p, k] · x1[q, k]. -/
theorem k2_pay1_apply (x0 x1 : Vec Ideal S1024x1024 .f32) (p q : Fin 1024) :
    k2_pay1 x0 x1 (ix2 p q) = ∑ k : Fin 1024, x0 (ix2 p k) * x1 (ix2 q k) := by
  unfold k2_pay1
  refine (blockDot_apply _ _ p q).trans ?_
  refine Finset.sum_congr rfl fun k _ => ?_
  rw [ValueIdx.truncf_apply, ValueIdx.truncf_apply, shapeCast_self]

/-! ## From blocks to the array -/

/-- The body's one load per operand and its one store are at the block's origin. -/
theorem zero_offsets : (![0, 0] : Fin 2 → Nat) = fun _ => 0 := funext fun a => by fin_cases a <;> rfl

/-- The printed index maps, decided over the grid: the two row windows are at block row t, the whole-array window at its one block. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val ≤ 3 :=
  (by decide +kernel : ∀ t : Fin grid2.N, _)

/-- Block t of the left array is its rows 1024 t … 1024 t + 1023. -/
theorem iblk2_0_apply (c : Dev nD) (t : Fin cfg2.N) (p k : Fin 1024) (i : S4096x1024.Idx)
    (h0 : (i 0).val = t.val * 1024 + p.val) (h1 : (i 1).val = k.val) :
    (iblk2 V c 0 t : Vec Ideal S1024x1024 .f32) (ix2 p k) = (V c main_v6 : S4096x1024.Idx → EReal) i := by
  obtain ⟨e0, e1, -⟩ := index_facts t
  unfold iblk2
  rw [View.read_apply]
  show V c main_v6 _ = V c main_v6 _
  congr 1
  funext a; apply Fin.ext
  match a with
  | ⟨0, _⟩ => show win2_0.index t (0 : Fin 2) * 1024 + 1 * p.val = (i 0).val; rw [e0, h0]; omega
  | ⟨1, _⟩ => show win2_0.index t (1 : Fin 2) * 1024 + 1 * k.val = (i 1).val; rw [e1, h1]; omega

/-- The one block of the right array is the array. -/
theorem iblk2_1_apply (c : Dev nD) (t : Fin cfg2.N) (q k : Fin 1024) (i : S1024x1024.Idx)
    (h0 : (i 0).val = q.val) (h1 : (i 1).val = k.val) :
    (iblk2 V c 1 t : Vec Ideal S1024x1024 .f32) (ix2 q k) = (V c main_arg5 : S1024x1024.Idx → EReal) i := by
  obtain ⟨-, -, e0, e1, -⟩ := index_facts t
  unfold iblk2
  rw [View.read_apply]
  show V c main_arg5 _ = V c main_arg5 _
  congr 1
  funext a; apply Fin.ext
  match a with
  | ⟨0, _⟩ => show win2_1.index t (0 : Fin 2) * 1024 + 1 * q.val = (i 0).val; rw [e0, h0]; omega
  | ⟨1, _⟩ => show win2_1.index t (1 : Fin 2) * 1024 + 1 * k.val = (i 1).val; rw [e1, h1]; omega

/-- WHAT POINT t WRITES BACK is block t of the rows' products. -/
theorem flushed_eq (c : Dev nD) (t : Fin cfg2.N) :
    (dat2 (F := Ideal) V c).flushed 2 t
      = ((cfg2.win 2).blk t).view.read (Elt Ideal) (Cert.Attn.rowsDot (V c main_v6) (V c main_arg5)) := by
  show (cfg2.win 2).cut (grid2.coords t) ((dat2 V c).after 2 t) = _
  rw [after2_2]
  unfold out2_2
  rw [View.canon_unit_zero zero_offsets]
  simp only [View.ld_unit_zero (S := S1024x1024) zero_offsets]
  obtain ⟨-, -, -, -, e0, e1, -⟩ := index_facts t
  funext j
  obtain ⟨p, q, rfl⟩ : ∃ (p : Fin 1024) (q : Fin 1024), j = ix2 p q := ⟨j 0, j 1, eq_ix2 j⟩
  show k2_pay1 (iblk2 V c 0 t) (iblk2 V c 1 t) (ix2 p q)
    = Cert.Attn.rowsDot (V c main_v6) (V c main_arg5) (((cfg2.win 2).blk t).view.emb (ix2 p q))
  refine (k2_pay1_apply _ _ p q).trans ?_
  unfold Cert.Attn.rowsDot
  refine Finset.sum_congr rfl fun k _ => ?_
  have hl := iblk2_0_apply V c t p k (ix2 ⟨((((cfg2.win 2).blk t).view.emb (ix2 p q)) 0).val, ((((cfg2.win 2).blk t).view.emb (ix2 p q)) 0).isLt⟩ k)
    (by show win2_2.index t (0 : Fin 2) * 1024 + 1 * p.val = _; rw [e0]; omega) rfl
  have hr := iblk2_1_apply V c t q k (ix2 ⟨((((cfg2.win 2).blk t).view.emb (ix2 p q)) 1).val, ((((cfg2.win 2).blk t).view.emb (ix2 p q)) 1).isLt⟩ k)
    (by show win2_2.index t (1 : Fin 2) * 1024 + 1 * q.val = _; rw [e1]; omega) rfl
  rw [hl, hr]

/-- An index of the array is in point t's block iff each coordinate is in the block's range on its axis. -/
theorem mem_blk (t : Fin cfg2.N) (i : S4096x1024.Idx) :
    i ∈ ((cfg2.win 2).blk t).view.set ↔ ∀ a : Fin 2, win2_2.index t a * S1024x1024.size a ≤ (i a).val ∧ (i a).val < win2_2.index t a * S1024x1024.size a + S1024x1024.size a := by
  show i ∈ ((View.whole main_v7).slice (win2_2.rect t)).set ↔ _
  rw [View.set_slice_whole, Rect.mem_set_unit]
  exact Iff.rfl

/-- Every row of the array is in the block of the point its block row names. -/
theorem covered (i : S4096x1024.Idx) :
    ∃ t : Fin cfg2.N, (cfg2.win 2).flush t = true ∧ i ∈ ((cfg2.win 2).blk t).view.set := by
  have hi0 : (i 0).val < 4096 := (i 0).isLt
  have hi1 : (i 1).val < 1024 := (i 1).isLt
  have hN : (i 0).val / 1024 < cfg2.N := by show (i 0).val / 1024 < 4; omega
  refine ⟨⟨(i 0).val / 1024, hN⟩, flush2_2 _, ?_⟩
  rw [mem_blk]
  obtain ⟨-, -, -, -, e0, e1, -⟩ := index_facts ⟨(i 0).val / 1024, hN⟩
  intro a
  match a with
  | ⟨0, _⟩ => show win2_2.index ⟨(i 0).val / 1024, hN⟩ (0 : Fin 2) * 1024 ≤ (i 0).val ∧ (i 0).val < win2_2.index ⟨(i 0).val / 1024, hN⟩ (0 : Fin 2) * 1024 + 1024; rw [e0]; show (i 0).val / 1024 * 1024 ≤ (i 0).val ∧ (i 0).val < (i 0).val / 1024 * 1024 + 1024; omega
  | ⟨1, _⟩ => show win2_2.index ⟨(i 0).val / 1024, hN⟩ (1 : Fin 2) * 1024 ≤ (i 1).val ∧ (i 1).val < win2_2.index ⟨(i 0).val / 1024, hN⟩ (1 : Fin 2) * 1024 + 1024; rw [e1]; omega

/-- THE ARRAY after the region: every entry the product of its row of the left array with its column's row of the right. -/
theorem arr2 (c : Dev nD) :
    (dat2 (F := Ideal) V c).arrAt 2 cfg2.N = Cert.Attn.rowsDot (V c main_v6) (V c main_arg5) :=
  (dat2 (F := Ideal) V c).arrAt_eq_of_cover 2 (Cert.Attn.rowsDot (V c main_v6) (V c main_arg5))
    (fun t _ => flushed_eq V c t) covered

end Cert.KernelIdeal.Region2

end
-- ==== Proof.Region3.lean ====
/-
  The attention core's weights array.

  The fourth pallas_call walks the 32 (batch, head) pairs and, per pair, four blocks of 512 query rows.  At a point
  its body takes the block's scores against all 2048 key rows of the pair (one matrix product, scaled by 1/8),
  the softmax of each row (the row's maximum from -∞ kept as a column and spread over the row, the exponentials of
  the shifted row, their sum likewise, the quotient), stores the weights as the block of the second output, and
  stores the weights against the pair's value rows (a second matrix product) as the block of the first.
  Here: both products and the softmax chain at an entry, the blocks each window reads at a point, and the
  weights array entry by entry, `Cert.Attn.attnArr`.  The attended values' array is in Region3Ctx.lean.
-/
import proofs.«400919_j3513283248898_3_alg».proof.Proof.Gen.KernelIdeal.Frame
import proofs.«400919_j3513283248898_3_alg».proof.Proof.Spec
import Idealize.ShloMosaic.PureOps.Ideal.Laws
import Idealize.ShloMosaic.Lib.Pipeline.Value
import Idealize.ShloMosaic.Lib.ValueIdx
import Idealize.ShloMosaic.Lib.ValueLayout
set_option maxRecDepth 16384

noncomputable section

namespace Cert.KernelIdeal.Region3

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-! ## The two products of the body, read at an entry -/

/-- Scores product, left operand: the row is the output's row. -/
theorem lhs_scores_0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
/-- Scores product, left operand: the column is the summed coordinate. -/
theorem lhs_scores_1 (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
/-- Scores product, right operand: the row is the output's column. -/
theorem rhs_scores_0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
/-- Scores product, right operand: the column is the summed coordinate. -/
theorem rhs_scores_1 (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q

/-- The scores product at (p, j): ∑_d A[p, d] · B[j, d]. -/
theorem scores_matmul_apply (A : FVec Ideal S512x64 .bf16) (B : FVec Ideal S2048x64 .bf16) (p : Fin 512) (j : Fin 2048) :
    matmul dot_S512x64_S2048x64_S512x2048_1_1_0_0_n_n none A B (constant (F := Ideal) S512x2048 .f32 0x00000000#32) (ix2 p j)
      = ∑ d : Fin 64, A (ix2 p d) * B (ix2 j d) := by
  simp only [matmul]
  rw [Ideal.matmul_constant_zero_apply, ← Equiv.sum_comp (ValueIdx.contrEquiv1 dot_S512x64_S2048x64_S512x2048_1_1_0_0_n_n 64 rfl rfl).symm]
  refine Finset.sum_congr rfl fun k _ => ?_
  have hk := ValueIdx.contrEquiv1_symm_val dot_S512x64_S2048x64_S512x2048_1_1_0_0_n_n 64 rfl rfl k
  have el : dot_S512x64_S2048x64_S512x2048_1_1_0_0_n_n.lhsIdx (ix2 p j) ((ValueIdx.contrEquiv1 dot_S512x64_S2048x64_S512x2048_1_1_0_0_n_n 64 rfl rfl).symm k) = ix2 p k := funext fun a => Fin.ext (by
    match a with
    | ⟨0, _⟩ => exact lhs_scores_0 _ _
    | ⟨1, _⟩ => exact (lhs_scores_1 _ _).trans hk)
  have er : dot_S512x64_S2048x64_S512x2048_1_1_0_0_n_n.rhsIdx (ix2 p j) ((ValueIdx.contrEquiv1 dot_S512x64_S2048x64_S512x2048_1_1_0_0_n_n 64 rfl rfl).symm k) = ix2 j k := funext fun a => Fin.ext (by
    match a with
    | ⟨0, _⟩ => exact rhs_scores_0 _ _
    | ⟨1, _⟩ => exact (rhs_scores_1 _ _).trans hk)
  rw [el, er]

/-- Values product, left operand: the row is the output's row. -/
theorem lhs_values_0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
/-- Values product, left operand: the column is the summed coordinate. -/
theorem lhs_values_1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
/-- Values product, right operand: the row is the summed coordinate. -/
theorem rhs_values_0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
/-- Values product, right operand: the column is the output's column. -/
theorem rhs_values_1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- The values product at (p, d): ∑_j P[p, j] · B[j, d]. -/
theorem values_matmul_apply (P : FVec Ideal S512x2048 .bf16) (B : FVec Ideal S2048x64 .bf16) (p : Fin 512) (d : Fin 64) :
    matmul dot_S512x2048_S2048x64_S512x64_1_0_0_1_n_n none P B (constant (F := Ideal) S512x64 .f32 0x00000000#32) (ix2 p d)
      = ∑ j : Fin 2048, P (ix2 p j) * B (ix2 j d) := by
  simp only [matmul]
  rw [Ideal.matmul_constant_zero_apply, ← Equiv.sum_comp (ValueIdx.contrEquiv1 dot_S512x2048_S2048x64_S512x64_1_0_0_1_n_n 2048 rfl rfl).symm]
  refine Finset.sum_congr rfl fun k _ => ?_
  have hk := ValueIdx.contrEquiv1_symm_val dot_S512x2048_S2048x64_S512x64_1_0_0_1_n_n 2048 rfl rfl k
  have el : dot_S512x2048_S2048x64_S512x64_1_0_0_1_n_n.lhsIdx (ix2 p d) ((ValueIdx.contrEquiv1 dot_S512x2048_S2048x64_S512x64_1_0_0_1_n_n 2048 rfl rfl).symm k) = ix2 p k := funext fun a => Fin.ext (by
    match a with
    | ⟨0, _⟩ => exact lhs_values_0 _ _
    | ⟨1, _⟩ => exact (lhs_values_1 _ _).trans hk)
  have er : dot_S512x2048_S2048x64_S512x64_1_0_0_1_n_n.rhsIdx (ix2 p d) ((ValueIdx.contrEquiv1 dot_S512x2048_S2048x64_S512x64_1_0_0_1_n_n 2048 rfl rfl).symm k) = ix2 k d := funext fun a => Fin.ext (by
    match a with
    | ⟨0, _⟩ => exact (rhs_values_0 _ _).trans hk
    | ⟨1, _⟩ => exact rhs_values_1 _ _)
  rw [el, er]

/-! ## The keepdims re-layout and the two row reductions -/

/-- A vector of `a` entries cast to a column `[a, 1]` reads, at `(i, u)`, its entry `i`. -/
theorem shapeCast_column_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_column_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A per-row value kept as a column and spread over the row: entry (p, j) is the row's value. -/
theorem keepdims_apply (v : FVec Ideal S512 .f32) (p : Fin 512) (j : Fin 2048) :
    broadcastTo S512x2048 (shapeCast S512x1 v shapeCasts_S512_S512x1) broadcasts_S512x1_S512x2048 (ix2 p j) = v (ix1 p) :=
  (broadcastTo_column_apply _ broadcasts_S512x1_S512x2048 p j).trans (shapeCast_column_apply v shapeCasts_S512_S512x1 p 0)

/-- The row maximum from -∞ of a [512, 2048] block, at row p. -/
theorem rowMax_reduction_apply (S : FVec Ideal S512x2048 .f32) (hφ : FTy.f32 = FTy.f32 ∨ FTy.f32 = FTy.bf16)
    (hacc : (0xFF800000#32 : BitVec 32) = 0xFF800000#32) (p : Fin 512) :
    multiReduction .maximumf [1] S512 S 0xFF800000#32 reduces_S512x2048_S512 hφ hacc (ix1 p)
      = Cert.Attn.rowMax (fun j => S (ix2 p j)) := by
  refine (Ideal.multiReduction_maximumf_single S 0xFF800000#32 reduces_S512x2048_S512 hφ hacc (ix1 p)).trans ?_
  unfold Cert.Attn.rowMax
  exact congrArg (fun f => (Finset.univ : Finset (Fin 2048)).fold max Cert.Attn.negInf f)
    (funext fun k => congrArg S (funext fun a => Fin.ext (by
      match a with
      | ⟨0, _⟩ => rfl
      | ⟨1, _⟩ => rfl)))

/-- The row sum of a [512, 2048] block, at row p. -/
theorem rowSum_reduction_apply (E : FVec Ideal S512x2048 .f32) (hφ : FTy.f32 = FTy.f32 ∨ FTy.f32 = FTy.bf16)
    (hacc : (0x00000000#32 : BitVec 32) = 0x00000000#32) (p : Fin 512) :
    multiReduction .add [1] S512 E 0x00000000#32 reduces_S512x2048_S512 hφ hacc (ix1 p)
      = ∑ j : Fin 2048, E (ix2 p j) := by
  refine (Ideal.multiReduction_add_single E 0x00000000#32 reduces_S512x2048_S512 hφ hacc (ix1 p)).trans ?_
  exact Finset.sum_congr rfl fun k _ => congrArg E (funext fun a => Fin.ext (by
      match a with
      | ⟨0, _⟩ => rfl
      | ⟨1, _⟩ => rfl))

/-- The exponential of a block, entry by entry. -/
theorem exp_apply {s : Shape} {φ : FTy} (a : FVec Ideal s φ) (i : s.Idx) : exp a i = Ideal.exp (a i) := rfl

/-! ## The body's arithmetic at an entry -/

/-- The softmax chain of the body over any block of scores: entry (p, j) is the softmax of row p at column j. -/
theorem softmax_chain_apply (Sc : FVec Ideal S512x2048 .f32) (hφ : FTy.f32 = FTy.f32 ∨ FTy.f32 = FTy.bf16)
    (hmax : (0xFF800000#32 : BitVec 32) = 0xFF800000#32) (hadd : (0x00000000#32 : BitVec 32) = 0x00000000#32) (p : Fin 512) (j : Fin 2048) :
    divf
        (exp (subf Sc (broadcastTo S512x2048 (shapeCast S512x1
          (multiReduction .maximumf [1] S512 Sc 0xFF800000#32 reduces_S512x2048_S512 hφ hmax) shapeCasts_S512_S512x1) broadcasts_S512x1_S512x2048)))
        (broadcastTo S512x2048 (shapeCast S512x1
          (multiReduction .add [1] S512
            (exp (subf Sc (broadcastTo S512x2048 (shapeCast S512x1
              (multiReduction .maximumf [1] S512 Sc 0xFF800000#32 reduces_S512x2048_S512 hφ hmax) shapeCasts_S512_S512x1) broadcasts_S512x1_S512x2048)))
            0x00000000#32 reduces_S512x2048_S512 hφ hadd) shapeCasts_S512_S512x1) broadcasts_S512x1_S512x2048)
        (ix2 p j)
      = Cert.Attn.softmaxRow (fun j' => Sc (ix2 p j')) j := by
  rw [divf_apply, keepdims_apply, rowSum_reduction_apply]
  simp only [exp_apply, subf_apply, keepdims_apply]
  rw [rowMax_reduction_apply]
  rfl

/-- The scaled scores of a block: entry (p, j) is (∑_d q[p, d] · k[j, d]) · 1/8. -/
theorem scores_payload_apply (qb : FVec Ideal S1x512x64 .bf16) (kb : FVec Ideal S1x2048x64 .bf16) (p : Fin 512) (j : Fin 2048) :
    mulf
        (matmul dot_S512x64_S2048x64_S512x2048_1_1_0_0_n_n none (shapeCast S512x64 qb shapeCasts_S1x512x64_S512x64)
          (shapeCast S2048x64 kb shapeCasts_S1x2048x64_S2048x64) (constant (F := Ideal) S512x2048 .f32 0x00000000#32))
        (broadcast S512x2048 (Scalar.ofBits (F := Ideal) .f32 0x3E000000#32)) (ix2 p j)
      = (∑ d : Fin 64, qb (ix3 0 p d) * kb (ix3 0 j d)) * Cert.Attn.scaleC := by
  simp only [mulf_apply, broadcast_apply, scores_matmul_apply, shapeCast_1ab_ab_apply]
  rfl

/-- The attention weights of a block: entry (p, j) is the softmax over the keys of query row p's scaled scores. -/
theorem weights_payload_apply (qb : Vec Ideal S1x512x64 .bf16) (kb : Vec Ideal S1x2048x64 .bf16) (p : Fin 512) (j : Fin 2048) :
    k3_pay1 qb kb (ix2 p j)
      = Cert.Attn.softmaxRow (fun j' => (∑ d : Fin 64, qb (ix3 0 p d) * kb (ix3 0 j' d)) * Cert.Attn.scaleC) j := by
  unfold k3_pay1
  refine (softmax_chain_apply _ _ _ _ p j).trans ?_
  exact congrArg (fun r => Cert.Attn.softmaxRow r j) (funext fun j' => scores_payload_apply qb kb p j')

/-- The weights block as the body stores it, [1, 512, 2048]: entry (u, p, j) is the softmax of row p at column j. -/
theorem weights_block_apply (qb : Vec Ideal S1x512x64 .bf16) (kb : Vec Ideal S1x2048x64 .bf16) (u : Fin 1) (p : Fin 512) (j : Fin 2048) :
    k3_pay2 qb kb (ix3 u p j)
      = Cert.Attn.softmaxRow (fun j' => (∑ d : Fin 64, qb (ix3 0 p d) * kb (ix3 0 j' d)) * Cert.Attn.scaleC) j := by
  unfold k3_pay2
  refine (shapeCast_ab_1ab_apply _ shapeCasts_S512x2048_S1x512x2048 u p j).trans ?_
  exact weights_payload_apply qb kb p j

/-- The attended values block as the body stores it, [1, 512, 64]: entry (u, p, d) is ∑_j weights[p, j] · v[j, d]. -/
theorem values_block_apply (qb : Vec Ideal S1x512x64 .bf16) (kb vb : Vec Ideal S1x2048x64 .bf16) (u : Fin 1) (p : Fin 512) (d : Fin 64) :
    k3_pay3 qb kb vb (ix3 u p d)
      = ∑ j : Fin 2048, Cert.Attn.softmaxRow (fun j' => (∑ d' : Fin 64, qb (ix3 0 p d') * kb (ix3 0 j' d')) * Cert.Attn.scaleC) j
          * vb (ix3 0 j d) := by
  unfold k3_pay3
  refine (shapeCast_ab_1ab_apply _ shapeCasts_S512x64_S1x512x64 u p d).trans ?_
  rw [truncf_apply, values_matmul_apply]
  refine Finset.sum_congr rfl fun j _ => ?_
  rw [truncf_apply, weights_payload_apply, shapeCast_1ab_ab_apply]

/-! ## From blocks to the arrays -/

/-- Every load and store of the body is at its block's origin. -/
theorem zero_offsets : (![0, 0, 0] : Fin 3 → Nat) = fun _ => 0 := funext fun a => by fin_cases a <;> rfl

/-- The printed index maps, decided over the grid: point t = 4·bh + qt reads the query block (bh, qt, 0) and the key and value
    blocks (bh, 0, 0), and writes the blocks (bh, qt, 0) of both results. -/
theorem block_indices : ∀ t : Fin cfg3.N,
    win3_0.index t (0 : Fin 3) = t.val / 4 ∧ win3_0.index t (1 : Fin 3) = t.val % 4 ∧ win3_0.index t (2 : Fin 3) = 0
    ∧ win3_1.index t (0 : Fin 3) = t.val / 4 ∧ win3_1.index t (1 : Fin 3) = 0 ∧ win3_1.index t (2 : Fin 3) = 0
    ∧ win3_2.index t (0 : Fin 3) = t.val / 4 ∧ win3_2.index t (1 : Fin 3) = 0 ∧ win3_2.index t (2 : Fin 3) = 0
    ∧ win3_3.index t (0 : Fin 3) = t.val / 4 ∧ win3_3.index t (1 : Fin 3) = t.val % 4 ∧ win3_3.index t (2 : Fin 3) = 0
    ∧ win3_4.index t (0 : Fin 3) = t.val / 4 ∧ win3_4.index t (1 : Fin 3) = t.val % 4 ∧ win3_4.index t (2 : Fin 3) = 0 :=
  (by decide +kernel : ∀ t : Fin grid3.N, _)

/-- The query block at point t, entry (u, p, d): row (t mod 4)·512 + p of pair t / 4. -/
theorem query_block_apply (c : Dev nD) (t : Fin cfg3.N) (u : Fin 1) (p : Fin 512) (d : Fin 64) (bh : Fin 32) (i : Fin 2048)
    (hbh : bh.val = t.val / 4) (hi : i.val = t.val % 4 * 512 + p.val) :
    (iblk3 (F := Ideal) V c 0 t : Vec Ideal S1x512x64 .bf16) (ix3 u p d)
      = (V c main_v11 : Cert.Attn.T32x2048x64.Idx → EReal) (ix3 bh i d) := by
  obtain ⟨e0, e1, e2, -⟩ := block_indices t
  unfold iblk3
  rw [View.read_apply]
  show (V c main_v11 : Cert.Attn.T32x2048x64.Idx → EReal) _ = (V c main_v11 : Cert.Attn.T32x2048x64.Idx → EReal) _
  refine congrArg _ (funext fun a => Fin.ext ?_)
  match a with
  | ⟨0, _⟩ => show win3_0.index t (0 : Fin 3) * 1 + 1 * u.val = bh.val; have := u.isLt; omega
  | ⟨1, _⟩ => show win3_0.index t (1 : Fin 3) * 512 + 1 * p.val = i.val; omega
  | ⟨2, _⟩ => show win3_0.index t (2 : Fin 3) * 64 + 1 * d.val = d.val; omega

/-- The key block at point t, entry (u, j, d): row j of pair t / 4. -/
theorem key_block_apply (c : Dev nD) (t : Fin cfg3.N) (u : Fin 1) (j : Fin 2048) (d : Fin 64) (bh : Fin 32)
    (hbh : bh.val = t.val / 4) :
    (iblk3 (F := Ideal) V c 1 t : Vec Ideal S1x2048x64 .bf16) (ix3 u j d)
      = (V c main_v14 : Cert.Attn.T32x2048x64.Idx → EReal) (ix3 bh j d) := by
  obtain ⟨-, -, -, e0, e1, e2, -⟩ := block_indices t
  unfold iblk3
  rw [View.read_apply]
  show (V c main_v14 : Cert.Attn.T32x2048x64.Idx → EReal) _ = (V c main_v14 : Cert.Attn.T32x2048x64.Idx → EReal) _
  refine congrArg _ (funext fun a => Fin.ext ?_)
  match a with
  | ⟨0, _⟩ => show win3_1.index t (0 : Fin 3) * 1 + 1 * u.val = bh.val; have := u.isLt; omega
  | ⟨1, _⟩ => show win3_1.index t (1 : Fin 3) * 2048 + 1 * j.val = j.val; omega
  | ⟨2, _⟩ => show win3_1.index t (2 : Fin 3) * 64 + 1 * d.val = d.val; omega

/-- The value block at point t, entry (u, j, d): row j of pair t / 4. -/
theorem value_block_apply (c : Dev nD) (t : Fin cfg3.N) (u : Fin 1) (j : Fin 2048) (d : Fin 64) (bh : Fin 32)
    (hbh : bh.val = t.val / 4) :
    (iblk3 (F := Ideal) V c 2 t : Vec Ideal S1x2048x64 .bf16) (ix3 u j d)
      = (V c main_v17 : Cert.Attn.T32x2048x64.Idx → EReal) (ix3 bh j d) := by
  obtain ⟨-, -, -, -, -, -, e0, e1, e2, -⟩ := block_indices t
  unfold iblk3
  rw [View.read_apply]
  show (V c main_v17 : Cert.Attn.T32x2048x64.Idx → EReal) _ = (V c main_v17 : Cert.Attn.T32x2048x64.Idx → EReal) _
  refine congrArg _ (funext fun a => Fin.ext ?_)
  match a with
  | ⟨0, _⟩ => show win3_2.index t (0 : Fin 3) * 1 + 1 * u.val = bh.val; have := u.isLt; omega
  | ⟨1, _⟩ => show win3_2.index t (1 : Fin 3) * 2048 + 1 * j.val = j.val; omega
  | ⟨2, _⟩ => show win3_2.index t (2 : Fin 3) * 64 + 1 * d.val = d.val; omega

/-- The weights array at coordinates: the softmax of query row i's scores of pair bh, at key j. -/
theorem attnArr_ix3 (Q K : Cert.Attn.T32x2048x64.Idx → EReal) (bh : Fin 32) (i j : Fin 2048) :
    Cert.Attn.attnArr Q K (ix3 bh i j) = Cert.Attn.softmaxRow (Cert.Attn.scoreRow Q K bh i) j := rfl

/-- What point t writes back to the weights array is block t of `attnArr` of the query and key arrays. -/
theorem flushed_weights_eq (c : Dev nD) (t : Fin cfg3.N) :
    (dat3 (F := Ideal) V c).flushed 4 t
      = ((cfg3.win 4).blk t).view.read (Elt Ideal) (Cert.Attn.attnArr (V c main_v11) (V c main_v14)) := by
  show (cfg3.win 4).cut (grid3.coords t) ((dat3 (F := Ideal) V c).after 4 t) = _
  rw [after3_4]
  unfold out3_4
  rw [View.canon_unit_zero zero_offsets]
  simp only [View.ld_unit_zero (S := S1x512x64) zero_offsets, View.ld_unit_zero (S := S1x2048x64) zero_offsets]
  obtain ⟨-, -, -, -, -, -, -, -, -, -, -, -, e0, e1, e2⟩ := block_indices t
  have hN : t.val < 128 := lt_of_lt_of_eq t.isLt N_3
  refine funext fun (y : S1x512x2048.Idx) => ?_
  obtain ⟨u, p, j, rfl⟩ : ∃ (u : Fin 1) (p : Fin 512) (j : Fin 2048), y = ix3 u p j := ⟨y 0, y 1, y 2, eq_ix3 y⟩
  refine (weights_block_apply (iblk3 V c 0 t) (iblk3 V c 1 t) u p j).trans ?_
  have hx : ((cfg3.win 4).blk t).view.emb (ix3 u p j)
      = ix3 (⟨t.val / 4, by omega⟩ : Fin 32) (⟨t.val % 4 * 512 + p.val, by omega⟩ : Fin 2048) j := by
    funext a; apply Fin.ext
    match a with
    | ⟨0, _⟩ => show win3_4.index t (0 : Fin 3) * 1 + 1 * u.val = t.val / 4; have := u.isLt; omega
    | ⟨1, _⟩ => show win3_4.index t (1 : Fin 3) * 512 + 1 * p.val = t.val % 4 * 512 + p.val; omega
    | ⟨2, _⟩ => show win3_4.index t (2 : Fin 3) * 2048 + 1 * j.val = j.val; omega
  rw [View.read_apply, hx, attnArr_ix3]
  refine congrArg (fun r => Cert.Attn.softmaxRow r j) (funext fun j' => ?_)
  unfold Cert.Attn.scoreRow
  refine congrArg (· * Cert.Attn.scaleC) (Finset.sum_congr rfl fun d _ => ?_)
  exact congrArg₂ (· * ·)
    (query_block_apply V c t 0 p d (⟨t.val / 4, by omega⟩ : Fin 32) (⟨t.val % 4 * 512 + p.val, by omega⟩ : Fin 2048) rfl rfl)
    (key_block_apply V c t 0 j' d (⟨t.val / 4, by omega⟩ : Fin 32) rfl)

/-- An index of the weights array is in point t's block iff each coordinate is in the block's range on its axis. -/
theorem mem_weights_block (t : Fin cfg3.N) (i : S32x2048x2048.Idx) :
    i ∈ ((cfg3.win 4).blk t).view.set ↔ ∀ a : Fin 3, win3_4.index t a * S1x512x2048.size a ≤ (i a).val
      ∧ (i a).val < win3_4.index t a * S1x512x2048.size a + S1x512x2048.size a := by
  show i ∈ ((View.whole main_v18_1).slice (win3_4.rect t)).set ↔ _
  rw [View.set_slice_whole, Rect.mem_set_unit]
  exact Iff.rfl

/-- Every index (bh, i, j) of the weights array is in the block of the point 4·bh + i / 512. -/
theorem weights_cover (i : S32x2048x2048.Idx) :
    ∃ t : Fin cfg3.N, (cfg3.win 4).flush t = true ∧ i ∈ ((cfg3.win 4).blk t).view.set := by
  have h0 : (i 0).val < 32 := (i 0).isLt
  have h1 : (i 1).val < 2048 := (i 1).isLt
  have h2 : (i 2).val < 2048 := (i 2).isLt
  have hlt : (i 0).val * 4 + (i 1).val / 512 < cfg3.N := lt_of_lt_of_eq (show _ < 128 by omega) N_3.symm
  obtain ⟨t, ht⟩ : ∃ t : Fin cfg3.N, t.val = (i 0).val * 4 + (i 1).val / 512 := ⟨⟨_, hlt⟩, rfl⟩
  obtain ⟨-, -, -, -, -, -, -, -, -, -, -, -, e0, e1, e2⟩ := block_indices t
  refine ⟨t, flush3_4 t, ?_⟩
  rw [mem_weights_block]
  intro a
  match a with
  | ⟨0, _⟩ => show win3_4.index t (0 : Fin 3) * 1 ≤ (i 0).val ∧ (i 0).val < win3_4.index t (0 : Fin 3) * 1 + 1; omega
  | ⟨1, _⟩ => show win3_4.index t (1 : Fin 3) * 512 ≤ (i 1).val ∧ (i 1).val < win3_4.index t (1 : Fin 3) * 512 + 512; omega
  | ⟨2, _⟩ => show win3_4.index t (2 : Fin 3) * 2048 ≤ (i 2).val ∧ (i 2).val < win3_4.index t (2 : Fin 3) * 2048 + 2048; omega

/-- THE WEIGHTS ARRAY after the region: the softmax over the keys of every query row's scaled scores, pair by pair. -/
theorem arr3_attn (c : Dev nD) :
    (dat3 (F := Ideal) V c).arrAt 4 cfg3.N = Cert.Attn.attnArr (V c main_v11) (V c main_v14) :=
  (dat3 (F := Ideal) V c).arrAt_eq_of_cover 4 (Cert.Attn.attnArr (V c main_v11) (V c main_v14))
    (fun t _ => flushed_weights_eq V c t) weights_cover

end Cert.KernelIdeal.Region3

end
-- ==== Proof.Region3Ctx.lean ====
/-
  The attention core's attended values.

  The first output of the fourth pallas_call: at the point of pair bh and query block qt the body stores the block's
  attention weights against the pair's 2048 value rows.  Read through the blocks the point fetches, entry (bh, i, d)
  of the array is ∑ⱼ weights[bh, i, j] · v[bh, j, d], which is `Cert.Attn.ctxArr`; the 128 blocks cover the array.
-/
import proofs.«400919_j3513283248898_3_alg».proof.Proof.Gen.KernelIdeal.Frame
import proofs.«400919_j3513283248898_3_alg».proof.Proof.Spec
import proofs.«400919_j3513283248898_3_alg».proof.Proof.Region3
import Idealize.ShloMosaic.PureOps.Ideal.Laws
import Idealize.ShloMosaic.Lib.Pipeline.Value
import Idealize.ShloMosaic.Lib.ValueIdx
import Idealize.ShloMosaic.Lib.ValueLayout
set_option maxRecDepth 16384

noncomputable section

namespace Cert.KernelIdeal.Region3

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-! ## The attended values: from blocks to the array -/

/-- Over any blocks that hold the query row, the key rows and the value rows of the array index x:
    entry (u, p, x's column) of the second payload is the attended value at x. -/
theorem attended_block_entry (qb : Vec Ideal S1x512x64 .bf16) (kb vb : Vec Ideal S1x2048x64 .bf16)
    (Q K W : Cert.Attn.T32x2048x64.Idx → EReal) (x : Cert.Attn.T32x2048x64.Idx) (u : Fin 1) (p : Fin 512)
    (hq : ∀ d' : Fin 64, qb (ix3 0 p d') = Q (ix3 (⟨(x 0).val, (x 0).isLt⟩ : Fin 32) (⟨(x 1).val, (x 1).isLt⟩ : Fin 2048) d'))
    (hk : ∀ (j' : Fin 2048) (d' : Fin 64), kb (ix3 0 j' d') = K (ix3 (⟨(x 0).val, (x 0).isLt⟩ : Fin 32) j' d'))
    (hv : ∀ j : Fin 2048, vb (ix3 0 j (⟨(x 2).val, (x 2).isLt⟩ : Fin 64))
      = W (ix3 (⟨(x 0).val, (x 0).isLt⟩ : Fin 32) j (⟨(x 2).val, (x 2).isLt⟩ : Fin 64))) :
    k3_pay3 qb kb vb (ix3 u p (⟨(x 2).val, (x 2).isLt⟩ : Fin 64)) = Cert.Attn.ctxArr Q K W x := by
  refine (values_block_apply _ _ _ u p _).trans ?_
  unfold Cert.Attn.ctxArr
  -- the block's scores are the query row's scores against every key row of its pair
  have hs : (fun j' : Fin 2048 => (∑ d' : Fin 64, qb (ix3 0 p d') * kb (ix3 0 j' d')) * Cert.Attn.scaleC)
      = Cert.Attn.scoreRow Q K (⟨(x 0).val, (x 0).isLt⟩ : Fin 32) (⟨(x 1).val, (x 1).isLt⟩ : Fin 2048) := by
    funext j'
    unfold Cert.Attn.scoreRow
    refine congrArg (· * Cert.Attn.scaleC) (Finset.sum_congr rfl fun d' _ => ?_)
    rw [hq, hk]
  refine Finset.sum_congr rfl fun j _ => ?_
  refine congrArg₂ (· * ·) ?_ (hv j)
  exact congrArg (fun r => Cert.Attn.softmaxRow r j) hs

/-- Entry (u, p, d) of the block point t stores is the attended value at the array index x it lands on:
    pair t / 4, query row 512 (t % 4) + p, column d. -/
theorem values_point_eq (c : Dev nD) (t : Fin cfg3.N) (u : Fin 1) (p : Fin 512) (d : Fin 64) (x : S32x2048x64.Idx)
    (h0 : (x 0).val = t.val / 4) (h1 : (x 1).val = t.val % 4 * 512 + p.val) (h2 : (x 2).val = d.val) :
    k3_pay3 (iblk3 (F := Ideal) V c 0 t) (iblk3 (F := Ideal) V c 1 t) (iblk3 (F := Ideal) V c 2 t) (ix3 u p d)
      = Cert.Attn.ctxArr (V c main_v11) (V c main_v14) (V c main_v17) x := by
  obtain rfl : d = (⟨(x 2).val, (x 2).isLt⟩ : Fin 64) := Fin.ext h2.symm
  exact attended_block_entry _ _ _ _ _ _ x u p
    (fun d' => query_block_apply V c t 0 p d' _ _ h0 h1)
    (fun j' d' => key_block_apply V c t 0 j' d' _ h0)
    (fun j => value_block_apply V c t 0 j _ _ h0)

/-- WHAT POINT t WRITES BACK to the values' array is block t of the attended values. -/
theorem flushed_values (c : Dev nD) (t : Fin cfg3.N) :
    (dat3 (F := Ideal) V c).flushed 3 t
      = ((cfg3.win 3).blk t).view.read (Elt Ideal) (Cert.Attn.ctxArr (V c main_v11) (V c main_v14) (V c main_v17)) := by
  show (cfg3.win 3).cut (grid3.coords t) ((dat3 V c).after 3 t) = _
  rw [after3_3]
  unfold out3_3
  rw [View.canon_unit_zero zero_offsets]
  simp only [View.ld_unit_zero (S := S1x512x64) zero_offsets, View.ld_unit_zero (S := S1x2048x64) zero_offsets]
  obtain ⟨-, -, -, -, -, -, -, -, -, e0, e1, e2, -⟩ := block_indices t
  funext j
  obtain ⟨u, p, d, rfl⟩ : ∃ (u : Fin 1) (p : Fin 512) (d : Fin 64), j = ix3 u p d := ⟨j 0, j 1, j 2, eq_ix3 j⟩
  show k3_pay3 (iblk3 V c 0 t) (iblk3 V c 1 t) (iblk3 V c 2 t) (ix3 u p d)
    = Cert.Attn.ctxArr (V c main_v11) (V c main_v14) (V c main_v17) (((cfg3.win 3).blk t).view.emb (ix3 u p d))
  have hu : u.val = 0 := by omega
  refine values_point_eq V c t u p d _ ?_ ?_ ?_
  · show win3_3.index t (0 : Fin 3) * 1 + 1 * u.val = _; rw [e0]; omega
  · show win3_3.index t (1 : Fin 3) * 512 + 1 * p.val = _; rw [e1]; omega
  · show win3_3.index t (2 : Fin 3) * 64 + 1 * d.val = _; rw [e2]; omega

/-- An index of the values' array is in point t's block iff each coordinate is in the block's range on its axis. -/
theorem mem_values_blk (t : Fin cfg3.N) (i : S32x2048x64.Idx) :
    i ∈ ((cfg3.win 3).blk t).view.set ↔ ∀ a : Fin 3, win3_3.index t a * S1x512x64.size a ≤ (i a).val ∧ (i a).val < win3_3.index t a * S1x512x64.size a + S1x512x64.size a := by
  show i ∈ ((View.whole main_v18_0).slice (win3_3.rect t)).set ↔ _
  rw [View.set_slice_whole, Rect.mem_set_unit]
  exact Iff.rfl

/-- Every index of the values' array is in the block of the point its pair and its block of query rows name. -/
theorem values_covered (i : S32x2048x64.Idx) :
    ∃ t : Fin cfg3.N, (cfg3.win 3).flush t = true ∧ i ∈ ((cfg3.win 3).blk t).view.set := by
  have hi0 : (i 0).val < 32 := (i 0).isLt
  have hi1 : (i 1).val < 2048 := (i 1).isLt
  have hi2 : (i 2).val < 64 := (i 2).isLt
  have hN : (i 0).val * 4 + (i 1).val / 512 < cfg3.N := by show (i 0).val * 4 + (i 1).val / 512 < 128; omega
  refine ⟨⟨(i 0).val * 4 + (i 1).val / 512, hN⟩, flush3_3 _, ?_⟩
  rw [mem_values_blk]
  obtain ⟨-, -, -, -, -, -, -, -, -, e0, e1, e2, -⟩ := block_indices ⟨(i 0).val * 4 + (i 1).val / 512, hN⟩
  intro a
  match a with
  | ⟨0, _⟩ => show win3_3.index ⟨(i 0).val * 4 + (i 1).val / 512, hN⟩ (0 : Fin 3) * 1 ≤ (i 0).val ∧ (i 0).val < win3_3.index ⟨(i 0).val * 4 + (i 1).val / 512, hN⟩ (0 : Fin 3) * 1 + 1; rw [e0]; show ((i 0).val * 4 + (i 1).val / 512) / 4 * 1 ≤ (i 0).val ∧ (i 0).val < ((i 0).val * 4 + (i 1).val / 512) / 4 * 1 + 1; omega
  | ⟨1, _⟩ => show win3_3.index ⟨(i 0).val * 4 + (i 1).val / 512, hN⟩ (1 : Fin 3) * 512 ≤ (i 1).val ∧ (i 1).val < win3_3.index ⟨(i 0).val * 4 + (i 1).val / 512, hN⟩ (1 : Fin 3) * 512 + 512; rw [e1]; show ((i 0).val * 4 + (i 1).val / 512) % 4 * 512 ≤ (i 1).val ∧ (i 1).val < ((i 0).val * 4 + (i 1).val / 512) % 4 * 512 + 512; omega
  | ⟨2, _⟩ => show win3_3.index ⟨(i 0).val * 4 + (i 1).val / 512, hN⟩ (2 : Fin 3) * 64 ≤ (i 2).val ∧ (i 2).val < win3_3.index ⟨(i 0).val * 4 + (i 1).val / 512, hN⟩ (2 : Fin 3) * 64 + 64; rw [e2]; omega

/-- THE VALUES' ARRAY after the region: every entry its query row's attention weights against its pair's value rows. -/
theorem arr3_ctx (c : Dev nD) :
    (dat3 (F := Ideal) V c).arrAt 3 cfg3.N = Cert.Attn.ctxArr (V c main_v11) (V c main_v14) (V c main_v17) :=
  (dat3 (F := Ideal) V c).arrAt_eq_of_cover 3 (Cert.Attn.ctxArr (V c main_v11) (V c main_v14) (V c main_v17))
    (fun t _ => flushed_values V c t) values_covered

end Cert.KernelIdeal.Region3

end
-- ==== Proof.Region4.lean ====
/-
  The output projection's array.

  The last pallas_call walks four blocks of 1024 token rows of the attended values; at block t its body multiplies
  the block by the transpose of the whole weight, adds the bias row to every row, and stores the result as block t
  of the output.  So the output array ends, entry by entry, at `Cert.Attn.rowsDotBias`: row r of the row array
  against row e of the weight, plus b[e].
-/
import proofs.«400919_j3513283248898_3_alg».proof.Proof.Gen.KernelIdeal.Frame
import proofs.«400919_j3513283248898_3_alg».proof.Proof.Spec
import Idealize.ShloMosaic.PureOps.Ideal.Laws
import Idealize.ShloMosaic.Lib.Pipeline.Value
import Idealize.ShloMosaic.Lib.ValueIdx
import Idealize.ShloMosaic.Lib.ValueLayout
set_option maxRecDepth 16384

noncomputable section

namespace Cert.KernelIdeal.Region4

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-! ## The block product at an index -/

/-- The left operand of the block product is read at the output's row, -/
theorem blockDot_lhs_row (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
/-- and at the contraction's position in that row. -/
theorem blockDot_lhs_col (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
/-- The right operand is read at the row the output's column names, -/
theorem blockDot_rhs_row (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
/-- and at the contraction's position in that row. -/
theorem blockDot_rhs_col (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The product of two blocks into the zero block, at entry (p, q): ∑ₖ a[p, k] · b[q, k]. -/
theorem blockDot_apply (a b : FVec Ideal S1024x1024 .bf16) (p q : Fin 1024) :
    FloatOps.matmul dot_S1024x1024_S1024x1024_S1024x1024_1_1_0_0_n_n none a b (constant (F := Ideal) S1024x1024 .f32 0x00000000#32) (ix2 p q)
      = ∑ k : Fin 1024, a (ix2 p k) * b (ix2 q k) := by
  rw [Ideal.matmul_constant_zero_apply, ← Equiv.sum_comp (ValueIdx.contrEquiv1 dot_S1024x1024_S1024x1024_S1024x1024_1_1_0_0_n_n 1024 rfl rfl).symm]
  refine Finset.sum_congr rfl fun k _ => ?_
  have hk := ValueIdx.contrEquiv1_symm_val dot_S1024x1024_S1024x1024_S1024x1024_1_1_0_0_n_n 1024 rfl rfl k
  have el : dot_S1024x1024_S1024x1024_S1024x1024_1_1_0_0_n_n.lhsIdx (ix2 p q) ((ValueIdx.contrEquiv1 dot_S1024x1024_S1024x1024_S1024x1024_1_1_0_0_n_n 1024 rfl rfl).symm k) = ix2 p k := funext fun a => Fin.ext (by
    match a with
    | ⟨0, _⟩ => exact blockDot_lhs_row _ _
    | ⟨1, _⟩ => exact (blockDot_lhs_col _ _).trans hk)
  have er : dot_S1024x1024_S1024x1024_S1024x1024_1_1_0_0_n_n.rhsIdx (ix2 p q) ((ValueIdx.contrEquiv1 dot_S1024x1024_S1024x1024_S1024x1024_1_1_0_0_n_n 1024 rfl rfl).symm k) = ix2 q k := funext fun a => Fin.ext (by
    match a with
    | ⟨0, _⟩ => exact blockDot_rhs_row _ _
    | ⟨1, _⟩ => exact (blockDot_rhs_col _ _).trans hk)
  rw [el, er]

/-- The body's payload at entry (p, q) of the block: ∑ₖ x0[p, k] · x1[q, k] + x2[q]. -/
theorem k4_pay1_apply (x0 x1 : Vec Ideal S1024x1024 .bf16) (x2 : Vec Ideal S1024 .f32) (p q : Fin 1024) :
    k4_pay1 x0 x1 x2 (ix2 p q) = (∑ k : Fin 1024, x0 (ix2 p k) * x1 (ix2 q k)) + x2 (ix1 q) := by
  unfold k4_pay1
  rw [ValueIdx.addf_apply]
  congr 1
  · refine (blockDot_apply _ _ p q).trans ?_
    simp only [shapeCast_self]
  · rw [broadcastTo_1b_ab_apply, shapeCast_a_1a_apply]

/-! ## From blocks to the array -/

/-- The body's one load per matrix operand and its one store are at the block's origin, -/
theorem zero_offsets : (![0, 0] : Fin 2 → Nat) = fun _ => 0 := funext fun a => by fin_cases a <;> rfl
/-- and so is its load of the bias. -/
theorem zero_offset : (![0] : Fin 1 → Nat) = fun _ => 0 := funext fun a => by fin_cases a; rfl

/-- The printed index maps, decided over the grid: the two row windows are at block row t, each whole-array window at its one block. -/
theorem index_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = t.val ∧ win4_3.index t (1 : Fin 2) = 0 ∧ t.val ≤ 3 :=
  (by decide +kernel : ∀ t : Fin grid4.N, _)

/-- Block t of the left array is its rows 1024 t … 1024 t + 1023. -/
theorem iblk4_0_apply (c : Dev nD) (t : Fin cfg4.N) (p k : Fin 1024) (i : S4096x1024.Idx)
    (h0 : (i 0).val = t.val * 1024 + p.val) (h1 : (i 1).val = k.val) :
    (iblk4 V c 0 t : Vec Ideal S1024x1024 .bf16) (ix2 p k) = (V c main_v23 : S4096x1024.Idx → EReal) i := by
  obtain ⟨e0, e1, -⟩ := index_facts t
  unfold iblk4
  rw [View.read_apply]
  show V c main_v23 _ = V c main_v23 _
  congr 1
  funext a; apply Fin.ext
  match a with
  | ⟨0, _⟩ => show win4_0.index t (0 : Fin 2) * 1024 + 1 * p.val = (i 0).val; rw [e0, h0]; omega
  | ⟨1, _⟩ => show win4_0.index t (1 : Fin 2) * 1024 + 1 * k.val = (i 1).val; rw [e1, h1]; omega

/-- The one block of the right array is the array. -/
theorem iblk4_1_apply (c : Dev nD) (t : Fin cfg4.N) (q k : Fin 1024) (i : S1024x1024.Idx)
    (h0 : (i 0).val = q.val) (h1 : (i 1).val = k.val) :
    (iblk4 V c 1 t : Vec Ideal S1024x1024 .bf16) (ix2 q k) = (V c main_v24 : S1024x1024.Idx → EReal) i := by
  obtain ⟨-, -, e0, e1, -⟩ := index_facts t
  unfold iblk4
  rw [View.read_apply]
  show V c main_v24 _ = V c main_v24 _
  congr 1
  funext a; apply Fin.ext
  match a with
  | ⟨0, _⟩ => show win4_1.index t (0 : Fin 2) * 1024 + 1 * q.val = (i 0).val; rw [e0, h0]; omega
  | ⟨1, _⟩ => show win4_1.index t (1 : Fin 2) * 1024 + 1 * k.val = (i 1).val; rw [e1, h1]; omega

/-- The one block of the bias is the bias. -/
theorem iblk4_2_apply (c : Dev nD) (t : Fin cfg4.N) (q : Fin 1024) (i : S1024.Idx)
    (h0 : (i 0).val = q.val) :
    (iblk4 V c 2 t : Vec Ideal S1024 .f32) (ix1 q) = (V c main_arg7 : S1024.Idx → EReal) i := by
  obtain ⟨-, -, -, -, e0, -⟩ := index_facts t
  unfold iblk4
  rw [View.read_apply]
  show V c main_arg7 _ = V c main_arg7 _
  congr 1
  funext a; apply Fin.ext
  match a with
  | ⟨0, _⟩ => show win4_2.index t (0 : Fin 1) * 1024 + 1 * q.val = (i 0).val; rw [e0, h0]; omega

/-- WHAT POINT t WRITES BACK is block t of the rows' products plus the bias. -/
theorem flushed_eq (c : Dev nD) (t : Fin cfg4.N) :
    (dat4 (F := Ideal) V c).flushed 3 t
      = ((cfg4.win 3).blk t).view.read (Elt Ideal) (Cert.Attn.rowsDotBias (V c main_v23) (V c main_v24) (V c main_arg7)) := by
  show (cfg4.win 3).cut (grid4.coords t) ((dat4 V c).after 3 t) = _
  rw [after4_3]
  unfold out4_3
  rw [View.canon_unit_zero zero_offsets]
  simp only [View.ld_unit_zero (S := S1024x1024) zero_offsets, View.ld_unit_zero (S := S1024) zero_offset]
  obtain ⟨-, -, -, -, -, e0, e1, -⟩ := index_facts t
  funext j
  obtain ⟨p, q, rfl⟩ : ∃ (p : Fin 1024) (q : Fin 1024), j = ix2 p q := ⟨j 0, j 1, eq_ix2 j⟩
  show k4_pay1 (iblk4 V c 0 t) (iblk4 V c 1 t) (iblk4 V c 2 t) (ix2 p q)
    = Cert.Attn.rowsDotBias (V c main_v23) (V c main_v24) (V c main_arg7) (((cfg4.win 3).blk t).view.emb (ix2 p q))
  refine (k4_pay1_apply _ _ _ p q).trans ?_
  unfold Cert.Attn.rowsDotBias Cert.Attn.rowsDot
  have hb := iblk4_2_apply V c t q (ix1 ⟨((((cfg4.win 3).blk t).view.emb (ix2 p q)) 1).val, ((((cfg4.win 3).blk t).view.emb (ix2 p q)) 1).isLt⟩)
    (by show win4_3.index t (1 : Fin 2) * 1024 + 1 * q.val = _; rw [e1]; omega)
  rw [hb]
  refine congrArg (· + _) (Finset.sum_congr rfl fun k _ => ?_)
  have hl := iblk4_0_apply V c t p k (ix2 ⟨((((cfg4.win 3).blk t).view.emb (ix2 p q)) 0).val, ((((cfg4.win 3).blk t).view.emb (ix2 p q)) 0).isLt⟩ k)
    (by show win4_3.index t (0 : Fin 2) * 1024 + 1 * p.val = _; rw [e0]; omega) rfl
  have hr := iblk4_1_apply V c t q k (ix2 ⟨((((cfg4.win 3).blk t).view.emb (ix2 p q)) 1).val, ((((cfg4.win 3).blk t).view.emb (ix2 p q)) 1).isLt⟩ k)
    (by show win4_3.index t (1 : Fin 2) * 1024 + 1 * q.val = _; rw [e1]; omega) rfl
  rw [hl, hr]

/-- An index of the array is in point t's block iff each coordinate is in the block's range on its axis. -/
theorem mem_blk (t : Fin cfg4.N) (i : S4096x1024.Idx) :
    i ∈ ((cfg4.win 3).blk t).view.set ↔ ∀ a : Fin 2, win4_3.index t a * S1024x1024.size a ≤ (i a).val ∧ (i a).val < win4_3.index t a * S1024x1024.size a + S1024x1024.size a := by
  show i ∈ ((View.whole main_v25).slice (win4_3.rect t)).set ↔ _
  rw [View.set_slice_whole, Rect.mem_set_unit]
  exact Iff.rfl

/-- Every row of the array is in the block of the point its block row names. -/
theorem covered (i : S4096x1024.Idx) :
    ∃ t : Fin cfg4.N, (cfg4.win 3).flush t = true ∧ i ∈ ((cfg4.win 3).blk t).view.set := by
  have hi0 : (i 0).val < 4096 := (i 0).isLt
  have hi1 : (i 1).val < 1024 := (i 1).isLt
  have hN : (i 0).val / 1024 < cfg4.N := by show (i 0).val / 1024 < 4; omega
  refine ⟨⟨(i 0).val / 1024, hN⟩, flush4_3 _, ?_⟩
  rw [mem_blk]
  obtain ⟨-, -, -, -, -, e0, e1, -⟩ := index_facts ⟨(i 0).val / 1024, hN⟩
  intro a
  match a with
  | ⟨0, _⟩ => show win4_3.index ⟨(i 0).val / 1024, hN⟩ (0 : Fin 2) * 1024 ≤ (i 0).val ∧ (i 0).val < win4_3.index ⟨(i 0).val / 1024, hN⟩ (0 : Fin 2) * 1024 + 1024; rw [e0]; show (i 0).val / 1024 * 1024 ≤ (i 0).val ∧ (i 0).val < (i 0).val / 1024 * 1024 + 1024; omega
  | ⟨1, _⟩ => show win4_3.index ⟨(i 0).val / 1024, hN⟩ (1 : Fin 2) * 1024 ≤ (i 1).val ∧ (i 1).val < win4_3.index ⟨(i 0).val / 1024, hN⟩ (1 : Fin 2) * 1024 + 1024; rw [e1]; omega

/-- THE ARRAY after the region: every entry the product of its row of the left array with its column's row of the right, plus its column's bias. -/
theorem arr4 (c : Dev nD) :
    (dat4 (F := Ideal) V c).arrAt 3 cfg4.N = Cert.Attn.rowsDotBias (V c main_v23) (V c main_v24) (V c main_arg7) :=
  (dat4 (F := Ideal) V c).arrAt_eq_of_cover 3 (Cert.Attn.rowsDotBias (V c main_v23) (V c main_v24) (V c main_arg7))
    (fun t _ => flushed_eq V c t) covered

end Cert.KernelIdeal.Region4

end
-- ==== Proof.Glue.lean ====
/-
  The contents of the kernel program's buffers, boundary by boundary.

  Between its five pallas_calls the program only re-lays arrays (reshapes, two transposes, one change of
  float format, which is the identity on the extended reals).  Each lemma below says what one buffer holds
  at one boundary, as a function of the eight argument arrays: a host stretch applies its operation to what
  the previous boundary held, a pallas_call leaves its output array at the function the region's value
  lemma names and every other buffer as it found it.  The last two lemmas are the two results:
  the output projection of the attended values, and the attention weights.
-/
import proofs.«400919_j3513283248898_3_alg».proof.Proof.Gen.KernelIdeal.Frame
import proofs.«400919_j3513283248898_3_alg».proof.Proof.Spec
import proofs.«400919_j3513283248898_3_alg».proof.Proof.Region0
import proofs.«400919_j3513283248898_3_alg».proof.Proof.Region1
import proofs.«400919_j3513283248898_3_alg».proof.Proof.Region2
import proofs.«400919_j3513283248898_3_alg».proof.Proof.Region3
import proofs.«400919_j3513283248898_3_alg».proof.Proof.Region3Ctx
import proofs.«400919_j3513283248898_3_alg».proof.Proof.Region4
import Idealize.ShloMosaic.Lib.StableHlo.Run

set_option maxRecDepth 16384

noncomputable section

namespace Cert.KernelIdeal.Glue

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- What a host stretch leaves in one buffer: its operation's value of what the boundary before held, or, for a
    buffer the stretch does not write, what was there. -/
local macro "host_read " W:ident ops:ident : tactic =>
  `(tactic| (dsimp only [$W:ident, $ops:ident]; after_results))

/-- A projection of the token rows of one input: rows of x (as [4096, 1024]) against rows of w. -/
abbrev proj (x : Cert.Attn.T2048x2x1024.Idx → EReal) (w : Cert.Attn.T1024x1024.Idx → EReal) : Cert.Attn.T4096x1024.Idx → EReal :=
  Cert.Attn.rowsDot (shapeCast Cert.Attn.T4096x1024 x (by decide)) w

/-! ## To the first projection -/

theorem W1_arg1 (c : Dev nD) : W1 m ρ c (Proc.devRef .tc main_arg1) = (m ((c : Thread nD τ).loc main_arg1)) := by
  host_read W1 hostOps0
theorem W1_arg2 (c : Dev nD) : W1 m ρ c (Proc.devRef .tc main_arg2) = (m ((c : Thread nD τ).loc main_arg2)) := by
  host_read W1 hostOps0
theorem W1_arg3 (c : Dev nD) : W1 m ρ c (Proc.devRef .tc main_arg3) = (m ((c : Thread nD τ).loc main_arg3)) := by
  host_read W1 hostOps0
theorem W1_arg4 (c : Dev nD) : W1 m ρ c (Proc.devRef .tc main_arg4) = (m ((c : Thread nD τ).loc main_arg4)) := by
  host_read W1 hostOps0
theorem W1_arg5 (c : Dev nD) : W1 m ρ c (Proc.devRef .tc main_arg5) = (m ((c : Thread nD τ).loc main_arg5)) := by
  host_read W1 hostOps0
theorem W1_arg6 (c : Dev nD) : W1 m ρ c (Proc.devRef .tc main_arg6) = (m ((c : Thread nD τ).loc main_arg6)) := by
  host_read W1 hostOps0
theorem W1_arg7 (c : Dev nD) : W1 m ρ c (Proc.devRef .tc main_arg7) = (m ((c : Thread nD τ).loc main_arg7)) := by
  host_read W1 hostOps0
theorem W1_v0 (c : Dev nD) : W1 m ρ c (Proc.devRef .tc main_v0) = shapeCast (s := Cert.Attn.T2048x2x1024) Cert.Attn.T4096x1024 (m ((c : Thread nD τ).loc main_arg0)) (by decide) := by
  host_read W1 hostOps0
  rfl

/-- The first pallas_call leaves the query projection in its output array. -/
theorem W2_v1 (c : Dev nD) : W2 m ρ c (Proc.devRef .tc main_v1) = proj (m ((c : Thread nD τ).loc main_arg0)) (m ((c : Thread nD τ).loc main_arg3)) := by
  refine (W2_arr m ρ c 2).trans ?_
  refine (Cert.KernelIdeal.Region0.arr0 (V1 m ρ) c).trans ?_
  show Cert.Attn.rowsDot (W1 m ρ c (Proc.devRef .tc main_v0)) (W1 m ρ c (Proc.devRef .tc main_arg3)) = _
  rw [W1_v0, W1_arg3]
theorem W2_arg1 (c : Dev nD) : W2 m ρ c (Proc.devRef .tc main_arg1) = (m ((c : Thread nD τ).loc main_arg1)) := by
  rw [W2_of_ne m ρ c main_arg1 (by decide)]; exact W1_arg1 m ρ c
theorem W2_arg2 (c : Dev nD) : W2 m ρ c (Proc.devRef .tc main_arg2) = (m ((c : Thread nD τ).loc main_arg2)) := by
  rw [W2_of_ne m ρ c main_arg2 (by decide)]; exact W1_arg2 m ρ c
theorem W2_arg4 (c : Dev nD) : W2 m ρ c (Proc.devRef .tc main_arg4) = (m ((c : Thread nD τ).loc main_arg4)) := by
  rw [W2_of_ne m ρ c main_arg4 (by decide)]; exact W1_arg4 m ρ c
theorem W2_arg5 (c : Dev nD) : W2 m ρ c (Proc.devRef .tc main_arg5) = (m ((c : Thread nD τ).loc main_arg5)) := by
  rw [W2_of_ne m ρ c main_arg5 (by decide)]; exact W1_arg5 m ρ c
theorem W2_arg6 (c : Dev nD) : W2 m ρ c (Proc.devRef .tc main_arg6) = (m ((c : Thread nD τ).loc main_arg6)) := by
  rw [W2_of_ne m ρ c main_arg6 (by decide)]; exact W1_arg6 m ρ c
theorem W2_arg7 (c : Dev nD) : W2 m ρ c (Proc.devRef .tc main_arg7) = (m ((c : Thread nD τ).loc main_arg7)) := by
  rw [W2_of_ne m ρ c main_arg7 (by decide)]; exact W1_arg7 m ρ c

/-! ## To the second projection -/

theorem W3_v2 (c : Dev nD) : W3 m ρ c (Proc.devRef .tc main_v2) = shapeCast Cert.Attn.T2048x2x1024 (proj (m ((c : Thread nD τ).loc main_arg0)) (m ((c : Thread nD τ).loc main_arg3))) (by decide) := by
  host_read W3 hostOps1
  rw [W2_v1]
  rfl
theorem W3_v3 (c : Dev nD) : W3 m ρ c (Proc.devRef .tc main_v3) = shapeCast (s := Cert.Attn.T2048x2x1024) Cert.Attn.T4096x1024 (m ((c : Thread nD τ).loc main_arg1)) (by decide) := by
  host_read W3 hostOps1
  rw [W2_arg1]
  rfl
theorem W3_arg2 (c : Dev nD) : W3 m ρ c (Proc.devRef .tc main_arg2) = (m ((c : Thread nD τ).loc main_arg2)) := by
  host_read W3 hostOps1
  exact W2_arg2 m ρ c
theorem W3_arg4 (c : Dev nD) : W3 m ρ c (Proc.devRef .tc main_arg4) = (m ((c : Thread nD τ).loc main_arg4)) := by
  host_read W3 hostOps1
  exact W2_arg4 m ρ c
theorem W3_arg5 (c : Dev nD) : W3 m ρ c (Proc.devRef .tc main_arg5) = (m ((c : Thread nD τ).loc main_arg5)) := by
  host_read W3 hostOps1
  exact W2_arg5 m ρ c
theorem W3_arg6 (c : Dev nD) : W3 m ρ c (Proc.devRef .tc main_arg6) = (m ((c : Thread nD τ).loc main_arg6)) := by
  host_read W3 hostOps1
  exact W2_arg6 m ρ c
theorem W3_arg7 (c : Dev nD) : W3 m ρ c (Proc.devRef .tc main_arg7) = (m ((c : Thread nD τ).loc main_arg7)) := by
  host_read W3 hostOps1
  exact W2_arg7 m ρ c

/-- The second pallas_call leaves the key projection in its output array. -/
theorem W4_v4 (c : Dev nD) : W4 m ρ c (Proc.devRef .tc main_v4) = proj (m ((c : Thread nD τ).loc main_arg1)) (m ((c : Thread nD τ).loc main_arg4)) := by
  refine (W4_arr m ρ c 2).trans ?_
  refine (Cert.KernelIdeal.Region1.arr1 (V3 m ρ) c).trans ?_
  show Cert.Attn.rowsDot (W3 m ρ c (Proc.devRef .tc main_v3)) (W3 m ρ c (Proc.devRef .tc main_arg4)) = _
  rw [W3_v3, W3_arg4]
theorem W4_v2 (c : Dev nD) : W4 m ρ c (Proc.devRef .tc main_v2) = shapeCast Cert.Attn.T2048x2x1024 (proj (m ((c : Thread nD τ).loc main_arg0)) (m ((c : Thread nD τ).loc main_arg3))) (by decide) := by
  rw [W4_of_ne m ρ c main_v2 (by decide)]; exact W3_v2 m ρ c
theorem W4_arg2 (c : Dev nD) : W4 m ρ c (Proc.devRef .tc main_arg2) = (m ((c : Thread nD τ).loc main_arg2)) := by
  rw [W4_of_ne m ρ c main_arg2 (by decide)]; exact W3_arg2 m ρ c
theorem W4_arg5 (c : Dev nD) : W4 m ρ c (Proc.devRef .tc main_arg5) = (m ((c : Thread nD τ).loc main_arg5)) := by
  rw [W4_of_ne m ρ c main_arg5 (by decide)]; exact W3_arg5 m ρ c
theorem W4_arg6 (c : Dev nD) : W4 m ρ c (Proc.devRef .tc main_arg6) = (m ((c : Thread nD τ).loc main_arg6)) := by
  rw [W4_of_ne m ρ c main_arg6 (by decide)]; exact W3_arg6 m ρ c
theorem W4_arg7 (c : Dev nD) : W4 m ρ c (Proc.devRef .tc main_arg7) = (m ((c : Thread nD τ).loc main_arg7)) := by
  rw [W4_of_ne m ρ c main_arg7 (by decide)]; exact W3_arg7 m ρ c

/-! ## To the third projection -/

theorem W5_v5 (c : Dev nD) : W5 m ρ c (Proc.devRef .tc main_v5) = shapeCast Cert.Attn.T2048x2x1024 (proj (m ((c : Thread nD τ).loc main_arg1)) (m ((c : Thread nD τ).loc main_arg4))) (by decide) := by
  host_read W5 hostOps2
  rw [W4_v4]
  rfl
theorem W5_v6 (c : Dev nD) : W5 m ρ c (Proc.devRef .tc main_v6) = shapeCast (s := Cert.Attn.T2048x2x1024) Cert.Attn.T4096x1024 (m ((c : Thread nD τ).loc main_arg2)) (by decide) := by
  host_read W5 hostOps2
  rw [W4_arg2]
  rfl
theorem W5_v2 (c : Dev nD) : W5 m ρ c (Proc.devRef .tc main_v2) = shapeCast Cert.Attn.T2048x2x1024 (proj (m ((c : Thread nD τ).loc main_arg0)) (m ((c : Thread nD τ).loc main_arg3))) (by decide) := by
  host_read W5 hostOps2
  exact W4_v2 m ρ c
theorem W5_arg5 (c : Dev nD) : W5 m ρ c (Proc.devRef .tc main_arg5) = (m ((c : Thread nD τ).loc main_arg5)) := by
  host_read W5 hostOps2
  exact W4_arg5 m ρ c
theorem W5_arg6 (c : Dev nD) : W5 m ρ c (Proc.devRef .tc main_arg6) = (m ((c : Thread nD τ).loc main_arg6)) := by
  host_read W5 hostOps2
  exact W4_arg6 m ρ c
theorem W5_arg7 (c : Dev nD) : W5 m ρ c (Proc.devRef .tc main_arg7) = (m ((c : Thread nD τ).loc main_arg7)) := by
  host_read W5 hostOps2
  exact W4_arg7 m ρ c

/-- The third pallas_call leaves the value projection in its output array. -/
theorem W6_v7 (c : Dev nD) : W6 m ρ c (Proc.devRef .tc main_v7) = proj (m ((c : Thread nD τ).loc main_arg2)) (m ((c : Thread nD τ).loc main_arg5)) := by
  refine (W6_arr m ρ c 2).trans ?_
  refine (Cert.KernelIdeal.Region2.arr2 (V5 m ρ) c).trans ?_
  show Cert.Attn.rowsDot (W5 m ρ c (Proc.devRef .tc main_v6)) (W5 m ρ c (Proc.devRef .tc main_arg5)) = _
  rw [W5_v6, W5_arg5]
theorem W6_v2 (c : Dev nD) : W6 m ρ c (Proc.devRef .tc main_v2) = shapeCast Cert.Attn.T2048x2x1024 (proj (m ((c : Thread nD τ).loc main_arg0)) (m ((c : Thread nD τ).loc main_arg3))) (by decide) := by
  rw [W6_of_ne m ρ c main_v2 (by decide)]; exact W5_v2 m ρ c
theorem W6_v5 (c : Dev nD) : W6 m ρ c (Proc.devRef .tc main_v5) = shapeCast Cert.Attn.T2048x2x1024 (proj (m ((c : Thread nD τ).loc main_arg1)) (m ((c : Thread nD τ).loc main_arg4))) (by decide) := by
  rw [W6_of_ne m ρ c main_v5 (by decide)]; exact W5_v5 m ρ c
theorem W6_arg6 (c : Dev nD) : W6 m ρ c (Proc.devRef .tc main_arg6) = (m ((c : Thread nD τ).loc main_arg6)) := by
  rw [W6_of_ne m ρ c main_arg6 (by decide)]; exact W5_arg6 m ρ c
theorem W6_arg7 (c : Dev nD) : W6 m ρ c (Proc.devRef .tc main_arg7) = (m ((c : Thread nD τ).loc main_arg7)) := by
  rw [W6_of_ne m ρ c main_arg7 (by decide)]; exact W5_arg7 m ρ c

/-! ## The three projections, per head -/

theorem W7_v11 (c : Dev nD) : W7 m ρ c (Proc.devRef .tc main_v11) = Cert.Attn.headsOf (m ((c : Thread nD τ).loc main_arg0)) (m ((c : Thread nD τ).loc main_arg3)) := by
  host_read W7 hostOps3
  rw [W6_v2]
  rfl
theorem W7_v14 (c : Dev nD) : W7 m ρ c (Proc.devRef .tc main_v14) = Cert.Attn.headsOf (m ((c : Thread nD τ).loc main_arg1)) (m ((c : Thread nD τ).loc main_arg4)) := by
  host_read W7 hostOps3
  rw [W6_v5]
  rfl
theorem W7_v17 (c : Dev nD) : W7 m ρ c (Proc.devRef .tc main_v17) = Cert.Attn.headsOf (m ((c : Thread nD τ).loc main_arg2)) (m ((c : Thread nD τ).loc main_arg5)) := by
  host_read W7 hostOps3
  rw [W6_v7]
  rfl
theorem W7_arg6 (c : Dev nD) : W7 m ρ c (Proc.devRef .tc main_arg6) = (m ((c : Thread nD τ).loc main_arg6)) := by
  host_read W7 hostOps3
  exact W6_arg6 m ρ c
theorem W7_arg7 (c : Dev nD) : W7 m ρ c (Proc.devRef .tc main_arg7) = (m ((c : Thread nD τ).loc main_arg7)) := by
  host_read W7 hostOps3
  exact W6_arg7 m ρ c

/-! ## The attention core -/

/-- The fourth pallas_call leaves the attention weights in its second output array … -/
theorem W8_v18_1 (c : Dev nD) : W8 m ρ c (Proc.devRef .tc main_v18_1)
    = Cert.Attn.attnArr (Cert.Attn.headsOf (m ((c : Thread nD τ).loc main_arg0)) (m ((c : Thread nD τ).loc main_arg3))) (Cert.Attn.headsOf (m ((c : Thread nD τ).loc main_arg1)) (m ((c : Thread nD τ).loc main_arg4))) := by
  refine (W8_arr m ρ c 4).trans ?_
  refine (Cert.KernelIdeal.Region3.arr3_attn (V7 m ρ) c).trans ?_
  show Cert.Attn.attnArr (W7 m ρ c (Proc.devRef .tc main_v11)) (W7 m ρ c (Proc.devRef .tc main_v14)) = _
  rw [W7_v11, W7_v14]

/-- … and the attended values in its first. -/
theorem W8_v18_0 (c : Dev nD) : W8 m ρ c (Proc.devRef .tc main_v18_0)
    = Cert.Attn.ctxArr (Cert.Attn.headsOf (m ((c : Thread nD τ).loc main_arg0)) (m ((c : Thread nD τ).loc main_arg3))) (Cert.Attn.headsOf (m ((c : Thread nD τ).loc main_arg1)) (m ((c : Thread nD τ).loc main_arg4))) (Cert.Attn.headsOf (m ((c : Thread nD τ).loc main_arg2)) (m ((c : Thread nD τ).loc main_arg5))) := by
  refine (W8_arr m ρ c 3).trans ?_
  refine (Cert.KernelIdeal.Region3.arr3_ctx (V7 m ρ) c).trans ?_
  show Cert.Attn.ctxArr (W7 m ρ c (Proc.devRef .tc main_v11)) (W7 m ρ c (Proc.devRef .tc main_v14)) (W7 m ρ c (Proc.devRef .tc main_v17)) = _
  rw [W7_v11, W7_v14, W7_v17]
theorem W8_arg6 (c : Dev nD) : W8 m ρ c (Proc.devRef .tc main_arg6) = (m ((c : Thread nD τ).loc main_arg6)) := by
  rw [W8_of_ne m ρ c main_arg6 (by decide)]; exact W7_arg6 m ρ c
theorem W8_arg7 (c : Dev nD) : W8 m ρ c (Proc.devRef .tc main_arg7) = (m ((c : Thread nD τ).loc main_arg7)) := by
  rw [W8_of_ne m ρ c main_arg7 (by decide)]; exact W7_arg7 m ρ c

/-! ## To the output projection -/

theorem W9_v19 (c : Dev nD) : W9 m ρ c (Proc.devRef .tc main_v19) = Cert.Attn.attnOut (m ((c : Thread nD τ).loc main_arg0)) (m ((c : Thread nD τ).loc main_arg1)) (m ((c : Thread nD τ).loc main_arg3)) (m ((c : Thread nD τ).loc main_arg4)) := by
  host_read W9 hostOps4
  rw [W8_v18_1]
  rfl
theorem W9_v23 (c : Dev nD) : W9 m ρ c (Proc.devRef .tc main_v23) = Cert.Attn.fromHeads (Cert.Attn.ctxArr (Cert.Attn.headsOf (m ((c : Thread nD τ).loc main_arg0)) (m ((c : Thread nD τ).loc main_arg3))) (Cert.Attn.headsOf (m ((c : Thread nD τ).loc main_arg1)) (m ((c : Thread nD τ).loc main_arg4))) (Cert.Attn.headsOf (m ((c : Thread nD τ).loc main_arg2)) (m ((c : Thread nD τ).loc main_arg5)))) := by
  host_read W9 hostOps4
  rw [W8_v18_0]
  rfl
/-- The weight's change of float format is the identity on the extended reals. -/
theorem W9_v24 (c : Dev nD) : W9 m ρ c (Proc.devRef .tc main_v24) = (m ((c : Thread nD τ).loc main_arg6)) := by
  host_read W9 hostOps4
  rw [W8_arg6]
  rfl
theorem W9_arg7 (c : Dev nD) : W9 m ρ c (Proc.devRef .tc main_arg7) = (m ((c : Thread nD τ).loc main_arg7)) := by
  host_read W9 hostOps4
  exact W8_arg7 m ρ c

/-- The fifth pallas_call leaves the output projection plus the bias in its output array. -/
theorem W10_v25 (c : Dev nD) : W10 m ρ c (Proc.devRef .tc main_v25)
    = Cert.Attn.rowsDotBias (Cert.Attn.fromHeads (Cert.Attn.ctxArr (Cert.Attn.headsOf (m ((c : Thread nD τ).loc main_arg0)) (m ((c : Thread nD τ).loc main_arg3))) (Cert.Attn.headsOf (m ((c : Thread nD τ).loc main_arg1)) (m ((c : Thread nD τ).loc main_arg4))) (Cert.Attn.headsOf (m ((c : Thread nD τ).loc main_arg2)) (m ((c : Thread nD τ).loc main_arg5))))) (m ((c : Thread nD τ).loc main_arg6)) (m ((c : Thread nD τ).loc main_arg7)) := by
  refine (W10_arr m ρ c 3).trans ?_
  refine (Cert.KernelIdeal.Region4.arr4 (V9 m ρ) c).trans ?_
  show Cert.Attn.rowsDotBias (W9 m ρ c (Proc.devRef .tc main_v23)) (W9 m ρ c (Proc.devRef .tc main_v24)) (W9 m ρ c (Proc.devRef .tc main_arg7)) = _
  rw [W9_v23, W9_v24, W9_arg7]
theorem W10_v19 (c : Dev nD) : W10 m ρ c (Proc.devRef .tc main_v19) = Cert.Attn.attnOut (m ((c : Thread nD τ).loc main_arg0)) (m ((c : Thread nD τ).loc main_arg1)) (m ((c : Thread nD τ).loc main_arg3)) (m ((c : Thread nD τ).loc main_arg4)) := by
  rw [W10_of_ne m ρ c main_v19 (by decide)]; exact W9_v19 m ρ c

/-! ## The two results -/

/-- FIRST RESULT: the output projection of the attended values, as [2048, 2, 1024]. -/
theorem W11_v26 (c : Dev nD) : W11 m ρ c (Proc.devRef .tc main_v26)
    = Cert.Attn.finalOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  host_read W11 hostOps5
  rw [W10_v25]
  rfl

/-- SECOND RESULT: the attention weights, as [2, 16, 2048, 2048]. -/
theorem W11_v19 (c : Dev nD) : W11 m ρ c (Proc.devRef .tc main_v19)
    = Cert.Attn.attnOut (m ((c : Thread nD τ).loc main_arg0)) (m ((c : Thread nD τ).loc main_arg1)) (m ((c : Thread nD τ).loc main_arg3)) (m ((c : Thread nD τ).loc main_arg4)) := by
  host_read W11 hostOps5
  exact W10_v19 m ρ c

end Cert.KernelIdeal.Glue

end
-- ==== Proof.Bridge.lean ====
/-
  The reference computes the same two functions.

  The reference's operations, read one at a time at an index, against the plain functions of Spec.lean:
  its projections per head are `headsOf` (a [4096, 1024] matrix of token rows re-laid as [32, 2048, 64] is the
  reference's [2, 16, 2048, 64] array with the pair (b, h) numbered b·16+h), its scaled scores are `scoreRow`,
  its softmax (a maximum from -∞, the exponentials of the shifted row, their sum from 0, the quotient) is
  `softmaxRow`, its weighted sums of value rows are `ctxArr`, and its output projection with the bias broadcast
  over the token rows is `rowsDotBias` of the re-laid attended values.  Sums are over the same index sets on both
  sides, so no law beyond re-indexing is needed.
-/
import proofs.«400919_j3513283248898_3_alg».proof.Proof.Gen.ReferenceIdeal.Read
import proofs.«400919_j3513283248898_3_alg».proof.Proof.Spec
import Idealize.ShloMosaic.PureOps.Ideal.Laws
import Idealize.ShloMosaic.Lib.Pipeline.Value
import Idealize.ShloMosaic.Lib.ValueIdx

noncomputable section

namespace Cert.ReferenceIdeal.Bridge

open Idealize.ShloMosaic Idealize.ShloMosaic.TcCoe Idealize.SL.Sem Idealize.ShloMosaic.ValueIdx
open Cert.ReferenceIdeal Cert.ReferenceIdeal.Read

/-- A [2048, 2, 1024] array of token rows (sequence position, batch, feature). -/
abbrev Tokens := (⟨S2048x2x1024, .f32⟩ : BufTy).Contents (Elt Ideal)
/-- A [1024, 1024] weight matrix. -/
abbrev Weights := (⟨S1024x1024, .f32⟩ : BufTy).Contents (Elt Ideal)

/-! ### The three projections, per head -/

/-- The reference's projected input per head at (b, h, n, d): row (n, b) of x against row h·64+d of w. -/
theorem val_main_v2_read (x : Tokens) (w : Weights) (b : Fin 2) (h : Fin 16) (n : Fin 2048) (d : Fin 64) :
    val_main_v2 (F := Ideal) x w (ix4 b h n d)
      = ∑ k : Fin 1024, x (ix3 n b k) * w (ix2 (⟨h.val * 64 + d.val, by omega⟩ : Fin 1024) k) := by
  rw [val_main_v2_apply, val_main_v1_apply, val_main_v0_apply]
  refine Finset.sum_congr rfl fun k _ => ?_
  have hb := b.isLt; have hh := h.isLt; have hn := n.isLt; have hd := d.isLt
  have el : lidx_main_v0 (idx_main_v1 (idx_main_v2 (ix4 b h n d))) k = ix3 n b k := funext fun a => Fin.ext (by
    match a with
    | ⟨0, _⟩ => show (((n.val * 2 + b.val) * 16 + h.val) * 64 + d.val) / 2048 = n.val; omega
    | ⟨1, _⟩ => show (((n.val * 2 + b.val) * 16 + h.val) * 64 + d.val) / 1024 % 2 = b.val; omega
    | ⟨2, _⟩ => rfl)
  have er : ridx_main_v0 (idx_main_v1 (idx_main_v2 (ix4 b h n d))) k = ix2 (⟨h.val * 64 + d.val, by omega⟩ : Fin 1024) k := funext fun a => Fin.ext (by
    match a with
    | ⟨0, _⟩ => show (((n.val * 2 + b.val) * 16 + h.val) * 64 + d.val) % 1024 = h.val * 64 + d.val; omega
    | ⟨1, _⟩ => rfl)
  rw [el, er]

/-- The key projection is the same function of its two arguments as the query projection. -/
theorem val_main_v5_eq_v2 (x : Tokens) (w : Weights) : val_main_v5 (F := Ideal) x w = val_main_v2 (F := Ideal) x w := rfl
/-- The value projection is the same function of its two arguments as the query projection. -/
theorem val_main_v8_eq_v2 (x : Tokens) (w : Weights) : val_main_v8 (F := Ideal) x w = val_main_v2 (F := Ideal) x w := rfl

/-- Token rows to per-head rows, read at (b·16+h, n, d): token row n·2+b, column h·64+d. -/
theorem toHeads_read (y : Cert.Attn.T4096x1024.Idx → EReal) (b : Fin 2) (h : Fin 16) (n : Fin 2048) (d : Fin 64) :
    Cert.Attn.toHeads y (ix3 (⟨b.val * 16 + h.val, by omega⟩ : Fin 32) n d)
      = y (ix2 (⟨n.val * 2 + b.val, by omega⟩ : Fin 4096) (⟨h.val * 64 + d.val, by omega⟩ : Fin 1024)) := by
  have hb := b.isLt; have hh := h.isLt; have hn := n.isLt; have hd := d.isLt
  unfold Cert.Attn.toHeads
  refine (shapeCast_apply _ _ _ (ix4 b h n d) ?_).trans ?_
  · rw [Shape.rowMajor_val_four, Shape.rowMajor_val_three]; rfl
  refine (transpose_apply _ _ _ _ (ix4 n b h d) (fun c => match c with
    | ⟨0, _⟩ => rfl
    | ⟨1, _⟩ => rfl
    | ⟨2, _⟩ => rfl
    | ⟨3, _⟩ => rfl)).trans ?_
  refine (shapeCast_apply _ _ _ (ix3 n b (⟨h.val * 64 + d.val, by omega⟩ : Fin 1024)) ?_).trans ?_
  · rw [Shape.rowMajor_val_four, Shape.rowMajor_val_three]
    show (n.val * 2 + b.val) * 1024 + (h.val * 64 + d.val) = ((n.val * 2 + b.val) * 16 + h.val) * 64 + d.val
    omega
  refine shapeCast_apply _ _ _ (ix2 (⟨n.val * 2 + b.val, by omega⟩ : Fin 4096) (⟨h.val * 64 + d.val, by omega⟩ : Fin 1024)) ?_
  rw [Shape.rowMajor_val_two, Shape.rowMajor_val_three]; rfl

/-- Per-head rows back to token rows, read at (n·2+b, h·64+d): pair b·16+h, row n, column d. -/
theorem fromHeads_read (o : Cert.Attn.T32x2048x64.Idx → EReal) (b : Fin 2) (h : Fin 16) (n : Fin 2048) (d : Fin 64) :
    Cert.Attn.fromHeads o (ix2 (⟨n.val * 2 + b.val, by omega⟩ : Fin 4096) (⟨h.val * 64 + d.val, by omega⟩ : Fin 1024))
      = o (ix3 (⟨b.val * 16 + h.val, by omega⟩ : Fin 32) n d) := by
  have hb := b.isLt; have hh := h.isLt; have hn := n.isLt; have hd := d.isLt
  unfold Cert.Attn.fromHeads
  refine (shapeCast_apply _ _ _ (ix3 n b (⟨h.val * 64 + d.val, by omega⟩ : Fin 1024)) ?_).trans ?_
  · rw [Shape.rowMajor_val_three, Shape.rowMajor_val_two]; rfl
  refine (shapeCast_apply _ _ _ (ix4 n b h d) ?_).trans ?_
  · rw [Shape.rowMajor_val_four, Shape.rowMajor_val_three]
    show ((n.val * 2 + b.val) * 16 + h.val) * 64 + d.val = (n.val * 2 + b.val) * 1024 + (h.val * 64 + d.val)
    omega
  refine (transpose_apply _ _ _ _ (ix4 b h n d) (fun c => match c with
    | ⟨0, _⟩ => rfl
    | ⟨1, _⟩ => rfl
    | ⟨2, _⟩ => rfl
    | ⟨3, _⟩ => rfl)).trans ?_
  refine shapeCast_apply _ _ _ (ix3 (⟨b.val * 16 + h.val, by omega⟩ : Fin 32) n d) ?_
  rw [Shape.rowMajor_val_three, Shape.rowMajor_val_four]; rfl

/-- The projected input per head, read at (b·16+h, n, d): row (n, b) of x against row h·64+d of w. -/
theorem headsOf_read (x : Tokens) (w : Weights) (b : Fin 2) (h : Fin 16) (n : Fin 2048) (d : Fin 64) :
    Cert.Attn.headsOf x w (ix3 (⟨b.val * 16 + h.val, by omega⟩ : Fin 32) n d)
      = ∑ k : Fin 1024, x (ix3 n b k) * w (ix2 (⟨h.val * 64 + d.val, by omega⟩ : Fin 1024) k) := by
  have hb := b.isLt; have hh := h.isLt; have hn := n.isLt; have hd := d.isLt
  unfold Cert.Attn.headsOf
  rw [toHeads_read]
  unfold Cert.Attn.rowsDot
  refine Finset.sum_congr rfl fun k _ => ?_
  refine congrArg (· * _) ?_
  refine shapeCast_apply _ _ _ (ix3 n b k) ?_
  rw [Shape.rowMajor_val_three, Shape.rowMajor_val_two]; rfl

/-- The projected input per head at (b·16+h, n, d) is the reference's at (b, h, n, d). -/
theorem headsOf_eq_v2 (x : Tokens) (w : Weights) (b : Fin 2) (h : Fin 16) (n : Fin 2048) (d : Fin 64) :
    Cert.Attn.headsOf x w (ix3 (⟨b.val * 16 + h.val, by omega⟩ : Fin 32) n d)
      = val_main_v2 (F := Ideal) x w (ix4 b h n d) :=
  (headsOf_read x w b h n d).trans (val_main_v2_read x w b h n d).symm

/-! ### The scores and their softmax -/

/-- The reference's scaled scores at (b, h, i, j) are the score row of pair b·16+h, query row i, at key j. -/
theorem val_main_v11_read (a0 a1 : Tokens) (a3 a4 : Weights) (b : Fin 2) (h : Fin 16) (i j : Fin 2048) :
    val_main_v11 (F := Ideal) a0 a1 a3 a4 (ix4 b h i j)
      = Cert.Attn.scoreRow (Cert.Attn.headsOf a0 a3) (Cert.Attn.headsOf a1 a4) (⟨b.val * 16 + h.val, by omega⟩ : Fin 32) i j := by
  rw [val_main_v11_apply, val_main_v9_apply, val_main_v10_apply, val_main_cst_apply, val_main_v5_eq_v2]
  unfold Cert.Attn.scoreRow
  refine congrArg (· * _) (Finset.sum_congr rfl fun k _ => ?_)
  rw [headsOf_eq_v2, headsOf_eq_v2]
  have el : lidx_main_v9 (ix4 b h i j) k = ix4 b h i k := funext fun a => Fin.ext (by
    match a with
    | ⟨0, _⟩ => rfl
    | ⟨1, _⟩ => rfl
    | ⟨2, _⟩ => rfl
    | ⟨3, _⟩ => rfl)
  have er : ridx_main_v9 (ix4 b h i j) k = ix4 b h j k := funext fun a => Fin.ext (by
    match a with
    | ⟨0, _⟩ => rfl
    | ⟨1, _⟩ => rfl
    | ⟨2, _⟩ => rfl
    | ⟨3, _⟩ => rfl)
  rw [el, er]

/-- The word 0xFF800000 is the bottom of the extended reals. -/
theorem negInf_eq_bot : Cert.Attn.negInf = ⊥ := by
  simp [Cert.Attn.negInf, Ideal.ofBits, Ideal.ieee]

/-- The maximum the reference subtracts at (b, h, i) is the maximum of the score row at (b, h, i):
    the fold of max from -∞ over the keys, and one more max against -∞, which changes nothing. -/
theorem val_main_v14_read (a0 a1 : Tokens) (a3 a4 : Weights) (b : Fin 2) (h : Fin 16) (i : Fin 2048) :
    val_main_v14 (F := Ideal) a0 a1 a3 a4 (ix3 b h i)
      = Cert.Attn.rowMax (fun j => val_main_v11 (F := Ideal) a0 a1 a3 a4 (ix4 b h i j)) := by
  rw [val_main_v14_apply, val_main_v13_apply, val_main_cst_1_apply]
  unfold val_main_v12
  generalize val_main_v11 (F := Ideal) a0 a1 a3 a4 = y
  have hr : S2x16x2048x2048.Reduces [3] S2x16x2048 := by decide
  rw [Host.reduce_eq_fold_single (FloatOps.maximumf (F := Ideal) (φ := .f32)) y _ Gen.reducesTo_S2x16x2048x2048_S2x16x2048_d3 hr Gen.h_S_]
  have e : (y ∘ hr.lift (ix3 b h i)) = fun j : Fin 2048 => y (ix4 b h i j) := funext fun j => congrArg y (funext fun a => Fin.ext (by
    match a with
    | ⟨0, _⟩ => rfl
    | ⟨1, _⟩ => rfl
    | ⟨2, _⟩ => rfl
    | ⟨3, _⟩ => rfl))
  rw [e]
  show max Cert.Attn.negInf (Cert.Attn.rowMax fun j => y (ix4 b h i j)) = _
  rw [negInf_eq_bot]
  exact max_eq_right bot_le

/-- The reference's exponential at (b, h, i, j): exp of the score minus its row's maximum. -/
theorem val_main_v18_read (a0 a1 : Tokens) (a3 a4 : Weights) (b : Fin 2) (h : Fin 16) (i j : Fin 2048) :
    val_main_v18 (F := Ideal) a0 a1 a3 a4 (ix4 b h i j)
      = Ideal.exp (val_main_v11 (F := Ideal) a0 a1 a3 a4 (ix4 b h i j)
          - Cert.Attn.rowMax (fun j' => val_main_v11 (F := Ideal) a0 a1 a3 a4 (ix4 b h i j'))) := by
  rw [val_main_v18_apply, val_main_v17_apply, val_main_v16_apply, val_main_v15_apply]
  have e : idx_main_v15 (idx_main_v16 (ix4 b h i j)) = ix3 b h i := funext fun a => Fin.ext (by
    match a with
    | ⟨0, _⟩ => rfl
    | ⟨1, _⟩ => rfl
    | ⟨2, _⟩ => rfl)
  rw [e, val_main_v14_read]
  rfl

/-- The reference's row sum at (b, h, i): the sum over the keys of the exponentials (from 0). -/
theorem val_main_v19_read (a0 a1 : Tokens) (a3 a4 : Weights) (b : Fin 2) (h : Fin 16) (i : Fin 2048) :
    val_main_v19 (F := Ideal) a0 a1 a3 a4 (ix3 b h i)
      = ∑ j : Fin 2048, val_main_v18 (F := Ideal) a0 a1 a3 a4 (ix4 b h i j) := by
  rw [val_main_v19_apply, val_main_cst_2_apply]
  show Ideal.ofBits .f32 0x00000000#32 + _ = _
  rw [Ideal.ofBits_zero_f32, zero_add]
  refine Finset.sum_congr rfl fun k _ => congrArg _ (funext fun a => Fin.ext (by
    match a with
    | ⟨0, _⟩ => rfl
    | ⟨1, _⟩ => rfl
    | ⟨2, _⟩ => rfl
    | ⟨3, _⟩ => rfl))

/-- The reference's attention weight at (b, h, i, j): the softmax of the score row at (b, h, i), at j. -/
theorem val_main_v22_read (a0 a1 : Tokens) (a3 a4 : Weights) (b : Fin 2) (h : Fin 16) (i j : Fin 2048) :
    val_main_v22 (F := Ideal) a0 a1 a3 a4 (ix4 b h i j)
      = Cert.Attn.softmaxRow (fun j' => val_main_v11 (F := Ideal) a0 a1 a3 a4 (ix4 b h i j')) j := by
  rw [val_main_v22_apply, val_main_v21_apply, val_main_v20_apply]
  have e : idx_main_v20 (idx_main_v21 (ix4 b h i j)) = ix3 b h i := funext fun a => Fin.ext (by
    match a with
    | ⟨0, _⟩ => rfl
    | ⟨1, _⟩ => rfl
    | ⟨2, _⟩ => rfl)
  rw [e, val_main_v19_read]
  unfold Cert.Attn.softmaxRow
  show Ideal.div _ _ = _
  rw [val_main_v18_read]
  refine congrArg (Ideal.div _) (Finset.sum_congr rfl fun k _ => ?_)
  rw [val_main_v18_read]

/-- The attention weights of pair b·16+h at (i, j) are the reference's at (b, h, i, j). -/
theorem attnArr_read (a0 a1 : Tokens) (a3 a4 : Weights) (b : Fin 2) (h : Fin 16) (i j : Fin 2048) :
    Cert.Attn.attnArr (Cert.Attn.headsOf a0 a3) (Cert.Attn.headsOf a1 a4) (ix3 (⟨b.val * 16 + h.val, by omega⟩ : Fin 32) i j)
      = val_main_v22 (F := Ideal) a0 a1 a3 a4 (ix4 b h i j) := by
  rw [val_main_v22_read]
  unfold Cert.Attn.attnArr
  refine congrArg (fun r => Cert.Attn.softmaxRow r j) (funext fun j' => ?_)
  exact (val_main_v11_read a0 a1 a3 a4 b h i j').symm

/-- SECOND RESULT: the attention weights, re-laid as [2, 16, 2048, 2048], are the reference's softmax stage. -/
theorem attnOut_eq (a0 a1 : (⟨S2048x2x1024, .f32⟩ : BufTy).Contents (Elt Ideal)) (a3 a4 : (⟨S1024x1024, .f32⟩ : BufTy).Contents (Elt Ideal)) :
    Cert.Attn.attnOut a0 a1 a3 a4 = val_main_v22 (F := Ideal) a0 a1 a3 a4 := by
  funext x
  obtain ⟨b, h, i, j, rfl⟩ : ∃ (b : Fin 2) (h : Fin 16) (i j : Fin 2048), x = ix4 b h i j := ⟨x 0, x 1, x 2, x 3, eq_ix4 x⟩
  have hb := b.isLt; have hh := h.isLt
  unfold Cert.Attn.attnOut
  refine (shapeCast_apply _ _ _ (ix3 (⟨b.val * 16 + h.val, by omega⟩ : Fin 32) i j) ?_).trans (attnArr_read a0 a1 a3 a4 b h i j)
  rw [Shape.rowMajor_val_three, Shape.rowMajor_val_four]; rfl

/-! ### The attended values, the output projection and its bias -/

/-- The reference's attended values at (b, h, n, d): the weights of row n of pair b·16+h against column d of its values. -/
theorem val_main_v23_read (a0 a1 a2 : Tokens) (a3 a4 a5 : Weights) (b : Fin 2) (h : Fin 16) (n : Fin 2048) (d : Fin 64) :
    val_main_v23 (F := Ideal) a0 a1 a2 a3 a4 a5 (ix4 b h n d)
      = Cert.Attn.ctxArr (Cert.Attn.headsOf a0 a3) (Cert.Attn.headsOf a1 a4) (Cert.Attn.headsOf a2 a5)
          (ix3 (⟨b.val * 16 + h.val, by omega⟩ : Fin 32) n d) := by
  rw [val_main_v23_apply, val_main_v8_eq_v2]
  unfold Cert.Attn.ctxArr
  refine Finset.sum_congr rfl fun k _ => ?_
  have el : lidx_main_v23 (ix4 b h n d) k = ix4 b h n k := funext fun a => Fin.ext (by
    match a with
    | ⟨0, _⟩ => rfl
    | ⟨1, _⟩ => rfl
    | ⟨2, _⟩ => rfl
    | ⟨3, _⟩ => rfl)
  have er : ridx_main_v23 (ix4 b h n d) k = ix4 b h k d := funext fun a => Fin.ext (by
    match a with
    | ⟨0, _⟩ => rfl
    | ⟨1, _⟩ => rfl
    | ⟨2, _⟩ => rfl
    | ⟨3, _⟩ => rfl)
  rw [el, er]
  exact (congrArg₂ (· * ·) (attnArr_read a0 a1 a3 a4 b h n k) (headsOf_eq_v2 a2 a5 b h k d)).symm

/-- The reference's attended values as token rows at (n, b, k): the per-head rows re-laid, at (n·2+b, k),
    where column k = (k / 64)·64 + k % 64 is column k % 64 of head k / 64. -/
theorem val_main_v25_read (a0 a1 a2 : Tokens) (a3 a4 a5 : Weights) (n : Fin 2048) (b : Fin 2) (k : Fin 1024) :
    val_main_v25 (F := Ideal) a0 a1 a2 a3 a4 a5 (ix3 n b k)
      = Cert.Attn.fromHeads (Cert.Attn.ctxArr (Cert.Attn.headsOf a0 a3) (Cert.Attn.headsOf a1 a4) (Cert.Attn.headsOf a2 a5))
          (ix2 (⟨n.val * 2 + b.val, by omega⟩ : Fin 4096) k) := by
  have hb := b.isLt; have hn := n.isLt; have hk := k.isLt
  rw [val_main_v25_apply, val_main_v24_apply]
  have e : idx_main_v24 (idx_main_v25 (ix3 n b k))
      = ix4 b (⟨k.val / 64, by omega⟩ : Fin 16) n (⟨k.val % 64, by omega⟩ : Fin 64) := funext fun a => Fin.ext (by
    match a with
    | ⟨0, _⟩ => show ((n.val * 2 + b.val) * 1024 + k.val) / 1024 % 2 = b.val; omega
    | ⟨1, _⟩ => show ((n.val * 2 + b.val) * 1024 + k.val) / 64 % 16 = k.val / 64; omega
    | ⟨2, _⟩ => show ((n.val * 2 + b.val) * 1024 + k.val) / 2048 = n.val; omega
    | ⟨3, _⟩ => show ((n.val * 2 + b.val) * 1024 + k.val) % 64 = k.val % 64; omega)
  rw [e, val_main_v23_read]
  have hf := fromHeads_read (Cert.Attn.ctxArr (Cert.Attn.headsOf a0 a3) (Cert.Attn.headsOf a1 a4) (Cert.Attn.headsOf a2 a5))
    b (⟨k.val / 64, by omega⟩ : Fin 16) n (⟨k.val % 64, by omega⟩ : Fin 64)
  have e2 : (⟨k.val / 64 * 64 + k.val % 64, by omega⟩ : Fin 1024) = k := Fin.ext (by show k.val / 64 * 64 + k.val % 64 = k.val; omega)
  rw [← hf]
  exact congrArg (fun c => Cert.Attn.fromHeads _ (ix2 _ c)) e2

/-- FIRST RESULT: the output projection of the re-laid attended values plus the bias, as [2048, 2, 1024], is the
    reference's last stage. -/
theorem finalOut_eq (a0 a1 a2 : (⟨S2048x2x1024, .f32⟩ : BufTy).Contents (Elt Ideal)) (a3 a4 a5 a6 : (⟨S1024x1024, .f32⟩ : BufTy).Contents (Elt Ideal))
    (a7 : (⟨S1024, .f32⟩ : BufTy).Contents (Elt Ideal)) :
    Cert.Attn.finalOut a0 a1 a2 a3 a4 a5 a6 a7 = val_main_v29 (F := Ideal) a0 a1 a2 a3 a4 a5 a6 a7 := by
  funext x
  obtain ⟨n, b, e, rfl⟩ : ∃ (n : Fin 2048) (b : Fin 2) (e : Fin 1024), x = ix3 n b e := ⟨x 0, x 1, x 2, eq_ix3 x⟩
  have hb := b.isLt; have hn := n.isLt
  unfold Cert.Attn.finalOut
  refine (shapeCast_apply _ _ _ (ix2 (⟨n.val * 2 + b.val, by omega⟩ : Fin 4096) e) ?_).trans ?_
  · rw [Shape.rowMajor_val_two, Shape.rowMajor_val_three]; rfl
  rw [val_main_v29_apply, val_main_v26_apply, val_main_v28_apply, val_main_v27_apply]
  unfold Cert.Attn.rowsDotBias Cert.Attn.rowsDot
  show _ + _ = _ + _
  refine congrArg₂ (· + ·) (Finset.sum_congr rfl fun k _ => ?_) ?_
  · have el : lidx_main_v26 (ix3 n b e) k = ix3 n b k := funext fun a => Fin.ext (by
      match a with
      | ⟨0, _⟩ => rfl
      | ⟨1, _⟩ => rfl
      | ⟨2, _⟩ => rfl)
    have er : ridx_main_v26 (ix3 n b e) k = ix2 e k := funext fun a => Fin.ext (by
      match a with
      | ⟨0, _⟩ => rfl
      | ⟨1, _⟩ => rfl)
    rw [el, er, val_main_v25_read]
  · exact congrArg a7 (funext fun a => Fin.ext (by
      match a with
      | ⟨0, _⟩ => rfl))

end Cert.ReferenceIdeal.Bridge

end
-- ==== Proof.lean ====
/-
  Multi-head attention: a Pallas program of five kernels against its jnp reference, over the extended reals.

  The program projects query, key and value by three matrix products (token rows [4096, 1024] against the
  rows of a weight), re-lays each as per-head rows [32, 2048, 64], runs the attention core per (batch, head) pair and
  block of 512 query rows — scores q·kᵀ/8, a softmax over the 2048 keys (exponentials of the row shifted by its
  maximum over their sum), the weights against the value rows —, re-lays the attended values as token rows and
  projects them by Wo, adding the bias.  The reference does the same with einsums on [2, 16, 2048, ·] arrays.
  On the extended reals a change of float format is the identity and a sum does not depend on its order or
  tiling, so the two programs compute ONE function of the eight arguments, `Cert.Attn.finalOut` and
  `Cert.Attn.attnOut` (Proof/Spec.lean): no finiteness of the inputs is used.

  The kernel program's side: each pallas_call's output array as a function of the arrays it finds
  (Proof/Region0 … Region4.lean), threaded through the reshapes and transposes between the calls
  (Proof/Glue.lean) over the run of the whole program with its results named (Proof/KernelRun.lean).
  The reference's side: its run and its operations read at an index are generated; Proof/Bridge.lean shows
  its two results are the same two functions.
-/
import proofs.«400919_j3513283248898_3_alg».proof.Defs
import proofs.«400919_j3513283248898_3_alg».proof.Proof.Gen.Kernel
import proofs.«400919_j3513283248898_3_alg».proof.Proof.Gen.Kernel.Skeleton
import proofs.«400919_j3513283248898_3_alg».proof.Proof.Gen.Kernel.Launch
import proofs.«400919_j3513283248898_3_alg».proof.Proof.Gen.Kernel.Points
import proofs.«400919_j3513283248898_3_alg».proof.Proof.Gen.Kernel.Frame
import proofs.«400919_j3513283248898_3_alg».proof.Proof.Gen.KernelIdeal
import proofs.«400919_j3513283248898_3_alg».proof.Proof.Gen.KernelIdeal.Skeleton
import proofs.«400919_j3513283248898_3_alg».proof.Proof.Gen.KernelIdeal.Launch
import proofs.«400919_j3513283248898_3_alg».proof.Proof.Gen.KernelIdeal.Points
import proofs.«400919_j3513283248898_3_alg».proof.Proof.Gen.KernelIdeal.Frame
import proofs.«400919_j3513283248898_3_alg».proof.Proof.Gen.ReferenceIdeal
import proofs.«400919_j3513283248898_3_alg».proof.Proof.Gen.ReferenceIdeal.Run
import proofs.«400919_j3513283248898_3_alg».proof.Proof.Gen.ReferenceIdeal.Read
import proofs.«400919_j3513283248898_3_alg».proof.Proof.Gen.Pre_finite_inputs
import proofs.«400919_j3513283248898_3_alg».proof.Proof.Spec
import proofs.«400919_j3513283248898_3_alg».proof.Proof.KernelRun
import proofs.«400919_j3513283248898_3_alg».proof.Proof.Glue
import proofs.«400919_j3513283248898_3_alg».proof.Proof.Bridge
import Idealize.ShloMosaic.Adequacy
import Idealize.ShloMosaic.Init

noncomputable section

namespace Cert.Proof

open Idealize.ShloMosaic Idealize.ShloMosaic.TcCoe Idealize.SL.Sem

/-- The reference program runs and leaves its arguments as they were: its generated run, the results dropped. -/
theorem frame_reference [Cert.ReferenceIdeal.Facts] [Cert.Pre_finite_inputs.Facts] : Cert.frame_ReferenceIdeal := fun m ρ _ =>
  (θ_run Cert.ReferenceIdeal.defs _ _).mono (fun _ h c => (h c).2.2) (Cert.ReferenceIdeal.Value.run (F := Ideal) m ρ)

/-- From memories agreeing on the eight arguments both programs end with the attention output at
    `Cert.Attn.finalOut` and the attention weights at `Cert.Attn.attnOut` of those arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Attn.finalOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.Attn.attnOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Glue.W11_v26 m ρ c), (h c).2.1.trans (Cert.KernelIdeal.Glue.W11_v19 m ρ c), (h c).2.2⟩)
      (Cert.KernelIdeal.GenRun.run_named (F := Ideal) m ρ)
  · refine (θ_run Cert.ReferenceIdeal.defs _ _).mono (fun r h c => ⟨?_, ?_, (h c).2.2⟩)
      (Cert.ReferenceIdeal.Value.run (F := Ideal) m' ρ')
    · rw [(h c).1, Cert.ReferenceIdeal.Read.val_main_v29_eq, (hagree c).1, (hagree c).2.1, (hagree c).2.2.1, (hagree c).2.2.2.1,
        (hagree c).2.2.2.2.1, (hagree c).2.2.2.2.2.1, (hagree c).2.2.2.2.2.2.1, (hagree c).2.2.2.2.2.2.2]
      exact (Cert.ReferenceIdeal.Bridge.finalOut_eq _ _ _ _ _ _ _ _).symm
    · rw [(h c).2.1, Cert.ReferenceIdeal.Read.val_main_v22_eq, (hagree c).1, (hagree c).2.1, (hagree c).2.2.2.1, (hagree c).2.2.2.2.1]
      exact (Cert.ReferenceIdeal.Bridge.attnOut_eq _ _ _ _).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
